-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S100000x64 : Shape := ⟨2, ![100000, 64]⟩
abbrev S50000x64 : Shape := ⟨2, ![50000, 64]⟩
abbrev S32x64 : Shape := ⟨2, ![32, 64]⟩
abbrev S4x64 : Shape := ⟨2, ![4, 64]⟩
abbrev S64x64 : Shape := ⟨2, ![64, 64]⟩
abbrev S192x64 : Shape := ⟨2, ![192, 64]⟩
abbrev S50000x16 : Shape := ⟨2, ![50000, 16]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S32x64 : S_.BroadcastsInDim S32x64 (![] : Fin 0 → Fin S32x64.rank)
  reducesTo_S32x64_S_d0_1 : S32x64.ReducesTo [0, 1] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg7 : FVec F S192x64 .f32) (main_arg8 : FVec F S4x64 .f32) (main_v33 : IVec S_ 1) : IVec S_ 1 :=
  let main_v34 : FVec F S192x64 .f32 := Host.absf main_arg7
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S4x64 .f32 := Host.absf main_arg8
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  main_v43

def fn_part1 {F : FTy → Type} [FloatOps F] (main_arg4 : FVec F S4x64 .f32) (main_arg5 : FVec F S64x64 .f32) (main_arg6 : FVec F S4x64 .f32) (main_arg7 : FVec F S192x64 .f32) (main_arg8 : FVec F S4x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg7 main_arg8 main_v33

def fn {F : FTy → Type} [FloatOps F] (main_arg0 : FVec F S200000x32 .f32) (main_arg1 : FVec F S100000x64 .f32) (main_arg2 : FVec F S50000x64 .f32) (main_arg3 : FVec F S32x64 .f32) (main_arg4 : FVec F S4x64 .f32) (main_arg5 : FVec F S64x64 .f32) (main_arg6 : FVec F S4x64 .f32) (main_arg7 : FVec F S192x64 .f32) (main_arg8 : FVec F S4x64 .f32) (main_arg9 : IVec S50000x16 32) (main_arg10 : IVec S50000x16 32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_v13 main_v16
-- ==== Kernel.lean ====
abbrev S200000x32 : Shape := ⟨2, ![200000, 32]⟩
abbrev S100000x64 : Shape := ⟨2, ![100000, 64]⟩
abbrev S50000x64 : Shape := ⟨2, ![50000, 64]⟩
abbrev S32x64 : Shape := ⟨2, ![32, 64]⟩
abbrev S4x64 : Shape := ⟨2, ![4, 64]⟩
abbrev S64x64 : Shape := ⟨2, ![64, 64]⟩
abbrev S192x64 : Shape := ⟨2, ![192, 64]⟩
abbrev S50000x16 : Shape := ⟨2, ![50000, 16]⟩
abbrev S_ : Shape := ⟨0, ![]⟩
abbrev S50000x16x1 : Shape := ⟨3, ![50000, 16, 1]⟩
abbrev S50000x16x32 : Shape := ⟨3, ![50000, 16, 32]⟩
abbrev S50000x16x64 : Shape := ⟨3, ![50000, 16, 64]⟩
abbrev S1000x64 : Shape := ⟨2, ![1000, 64]⟩
abbrev S1000x16x32 : Shape := ⟨3, ![1000, 16, 32]⟩
abbrev S1000x16x64 : Shape := ⟨3, ![1000, 16, 64]⟩
abbrev S1000x1x32 : Shape := ⟨3, ![1000, 1, 32]⟩
abbrev S1000x32 : Shape := ⟨2, ![1000, 32]⟩
abbrev S1x64 : Shape := ⟨2, ![1, 64]⟩
abbrev S64 : Shape := ⟨1, ![64]⟩
abbrev S1000x1x64 : Shape := ⟨3, ![1000, 1, 64]⟩
abbrev S1000x192 : Shape := ⟨2, ![1000, 192]⟩

abbrev nBuf : Space → Nat
  | .hbm => 30
  | .vmem => 14
  | .smem => 0
  | _ => 0

abbrev bufTy : (tb : Table) → Fin (tcTables nBuf tb) → BufTy
  | .hbm, ⟨0, _⟩ => ⟨S200000x32, .f32⟩
  | .hbm, ⟨1, _⟩ => ⟨S100000x64, .f32⟩
  | .hbm, ⟨2, _⟩ => ⟨S50000x64, .f32⟩
  | .hbm, ⟨3, _⟩ => ⟨S32x64, .f32⟩
  | .hbm, ⟨4, _⟩ => ⟨S4x64, .f32⟩
  | .hbm, ⟨5, _⟩ => ⟨S64x64, .f32⟩
  | .hbm, ⟨6, _⟩ => ⟨S4x64, .f32⟩
  | .hbm, ⟨7, _⟩ => ⟨S192x64, .f32⟩
  | .hbm, ⟨8, _⟩ => ⟨S4x64, .f32⟩
  | .hbm, ⟨9, _⟩ => ⟨S50000x16, .i32⟩
  | .hbm, ⟨10, _⟩ => ⟨S50000x16, .i32⟩
  | .hbm, ⟨11, _⟩ => ⟨S_, .i32⟩
  | .hbm, ⟨12, _⟩ => ⟨S50000x16, .i32⟩
  | .hbm, ⟨13, _⟩ => ⟨S50000x16, .i1⟩
  | .hbm, ⟨14, _⟩ => ⟨S_, .i32⟩
  | .hbm, ⟨15, _⟩ => ⟨S50000x16, .i32⟩
  | .hbm, ⟨16, _⟩ => ⟨S50000x16, .i32⟩
  | .hbm, ⟨17, _⟩ => ⟨S50000x16, .i32⟩
  | .hbm, ⟨18, _⟩ => ⟨S50000x16x1, .i32⟩
  | .hbm, ⟨19, _⟩ => ⟨S50000x16x32, .f32⟩
  | .hbm, ⟨20, _⟩ => ⟨S_, .i32⟩
  | .hbm, ⟨21, _⟩ => ⟨S50000x16, .i32⟩
  | .hbm, ⟨22, _⟩ => ⟨S50000x16, .i1⟩
  | .hbm, ⟨23, _⟩ => ⟨S_, .i32⟩
  | .hbm, ⟨24, _⟩ => ⟨S50000x16, .i32⟩
  | .hbm, ⟨25, _⟩ => ⟨S50000x16, .i32⟩
  | .hbm, ⟨26, _⟩ => ⟨S50000x16, .i32⟩
  | .hbm, ⟨27, _⟩ => ⟨S50000x16x1, .i32⟩
  | .hbm, ⟨28, _⟩ => ⟨S50000x16x64, .f32⟩
  | .hbm, ⟨29, _⟩ => ⟨S50000x64, .f32⟩
  | .local _ .vmem, ⟨0, _⟩ => ⟨S1000x64, .f32⟩
  | .local _ .vmem, ⟨1, _⟩ => ⟨S1000x64, .f32⟩
  | .local _ .vmem, ⟨2, _⟩ => ⟨S1000x16x32, .f32⟩
  | .local _ .vmem, ⟨3, _⟩ => ⟨S1000x16x32, .f32⟩
  | .local _ .vmem, ⟨4, _⟩ => ⟨S1000x16x64, .f32⟩
  | .local _ .vmem, ⟨5, _⟩ => ⟨S1000x16x64, .f32⟩
  | .local _ .vmem, ⟨6, _⟩ => ⟨S32x64, .f32⟩
  | .local _ .vmem, ⟨7, _⟩ => ⟨S4x64, .f32⟩
  | .local _ .vmem, ⟨8, _⟩ => ⟨S64x64, .f32⟩
  | .local _ .vmem, ⟨9, _⟩ => ⟨S4x64, .f32⟩
  | .local _ .vmem, ⟨10, _⟩ => ⟨S192x64, .f32⟩
  | .local _ .vmem, ⟨11, _⟩ => ⟨S4x64, .f32⟩
  | .local _ .vmem, ⟨12, _⟩ => ⟨S1000x64, .f32⟩
  | .local _ .vmem, ⟨13, _⟩ => ⟨S1000x64, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  inb_S1000x16x32_S1000x16x32_0_0_0 : ∀ a, (![0, 0, 0] : Fin 3 → Nat) a + S1000x16x32.size a ≤ S1000x16x32.size a
  h_S1000x16x32 : 0 < S1000x16x32.numel
  shapeCasts_S1000x16x32_S1000x16x32 : S1000x16x32.ShapeCasts S1000x16x32
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  slices_S1000x16x32_o0_0_0_S1000x1x32 : S1000x16x32.Slices ![0, 0, 0] S1000x1x32
  shapeCasts_S1000x1x32_S1000x32 : S1000x1x32.ShapeCasts S1000x32
  slices_S4x64_o0_0_S1x64 : S4x64.Slices ![0, 0] S1x64
  shapeCasts_S1x64_S64 : S1x64.ShapeCasts S64
  slices_S4x64_o1_0_S1x64 : S4x64.Slices ![1, 0] S1x64
  slices_S4x64_o2_0_S1x64 : S4x64.Slices ![2, 0] S1x64
  slices_S4x64_o3_0_S1x64 : S4x64.Slices ![3, 0] S1x64
  shapeCasts_S64_S1x64 : S64.ShapeCasts S1x64
  broadcasts_S1x64_S1000x64 : S1x64.Broadcasts S1000x64
  slices_S1000x16x32_o0_1_0_S1000x1x32 : S1000x16x32.Slices ![0, 1, 0] S1000x1x32
  slices_S1000x16x32_o0_2_0_S1000x1x32 : S1000x16x32.Slices ![0, 2, 0] S1000x1x32
  slices_S1000x16x32_o0_3_0_S1000x1x32 : S1000x16x32.Slices ![0, 3, 0] S1000x1x32
  slices_S1000x16x32_o0_4_0_S1000x1x32 : S1000x16x32.Slices ![0, 4, 0] S1000x1x32
  slices_S1000x16x32_o0_5_0_S1000x1x32 : S1000x16x32.Slices ![0, 5, 0] S1000x1x32
  slices_S1000x16x32_o0_6_0_S1000x1x32 : S1000x16x32.Slices ![0, 6, 0] S1000x1x32
  slices_S1000x16x32_o0_7_0_S1000x1x32 : S1000x16x32.Slices ![0, 7, 0] S1000x1x32
  slices_S1000x16x32_o0_8_0_S1000x1x32 : S1000x16x32.Slices ![0, 8, 0] S1000x1x32
  slices_S1000x16x32_o0_9_0_S1000x1x32 : S1000x16x32.Slices ![0, 9, 0] S1000x1x32
  slices_S1000x16x32_o0_10_0_S1000x1x32 : S1000x16x32.Slices ![0, 10, 0] S1000x1x32
  slices_S1000x16x32_o0_11_0_S1000x1x32 : S1000x16x32.Slices ![0, 11, 0] S1000x1x32
  slices_S1000x16x32_o0_12_0_S1000x1x32 : S1000x16x32.Slices ![0, 12, 0] S1000x1x32
  slices_S1000x16x32_o0_13_0_S1000x1x32 : S1000x16x32.Slices ![0, 13, 0] S1000x1x32
  slices_S1000x16x32_o0_14_0_S1000x1x32 : S1000x16x32.Slices ![0, 14, 0] S1000x1x32
  slices_S1000x16x32_o0_15_0_S1000x1x32 : S1000x16x32.Slices ![0, 15, 0] S1000x1x32
  inb_S1000x16x64_S1000x16x64_0_0_0 : ∀ a, (![0, 0, 0] : Fin 3 → Nat) a + S1000x16x64.size a ≤ S1000x16x64.size a
  h_S1000x16x64 : 0 < S1000x16x64.numel
  shapeCasts_S1000x16x64_S1000x16x64 : S1000x16x64.ShapeCasts S1000x16x64
  inb_S64x64_S64x64_0_0 : ∀ a, (![0, 0] : Fin 2 → Nat) a + S64x64.size a ≤ S64x64.size a
  h_S64x64 : 0 < S64x64.numel
  slices_S1000x16x64_o0_0_0_S1000x1x64 : S1000x16x64.Slices ![0, 0, 0] S1000x1x64
  shapeCasts_S1000x1x64_S1000x64 : S1000x1x64.ShapeCasts S1000x64
  slices_S1000x16x64_o0_1_0_S1000x1x64 : S1000x16x64.Slices ![0, 1, 0] S1000x1x64
  slices_S1000x16x64_o0_2_0_S1000x1x64 : S1000x16x64.Slices ![0, 2, 0] S1000x1x64
  slices_S1000x16x64_o0_3_0_S1000x1x64 : S1000x16x64.Slices ![0, 3, 0] S1000x1x64
  slices_S1000x16x64_o0_4_0_S1000x1x64 : S1000x16x64.Slices ![0, 4, 0] S1000x1x64
  slices_S1000x16x64_o0_5_0_S1000x1x64 : S1000x16x64.Slices ![0, 5, 0] S1000x1x64
  slices_S1000x16x64_o0_6_0_S1000x1x64 : S1000x16x64.Slices ![0, 6, 0] S1000x1x64
  slices_S1000x16x64_o0_7_0_S1000x1x64 : S1000x16x64.Slices ![0, 7, 0] S1000x1x64
  slices_S1000x16x64_o0_8_0_S1000x1x64 : S1000x16x64.Slices ![0, 8, 0] S1000x1x64
  slices_S1000x16x64_o0_9_0_S1000x1x64 : S1000x16x64.Slices ![0, 9, 0] S1000x1x64
  slices_S1000x16x64_o0_10_0_S1000x1x64 : S1000x16x64.Slices ![0, 10, 0] S1000x1x64
  slices_S1000x16x64_o0_11_0_S1000x1x64 : S1000x16x64.Slices ![0, 11, 0] S1000x1x64
  slices_S1000x16x64_o0_12_0_S1000x1x64 : S1000x16x64.Slices ![0, 12, 0] S1000x1x64
  slices_S1000x16x64_o0_13_0_S1000x1x64 : S1000x16x64.Slices ![0, 13, 0] S1000x1x64
  slices_S1000x16x64_o0_14_0_S1000x1x64 : S1000x16x64.Slices ![0, 14, 0] S1000x1x64
  slices_S1000x16x64_o0_15_0_S1000x1x64 : S1000x16x64.Slices ![0, 15, 0] S1000x1x64
  inb_S1000x64_S1000x64_0_0 : ∀ a, (![0, 0] : Fin 2 → Nat) a + S1000x64.size a ≤ S1000x64.size a
  h_S1000x64 : 0 < S1000x64.numel
  concatenates_S1000x64_S1000x64_S1000x64_S1000x192_d1 : Shape.Concatenates [S1000x64, S1000x64, S1000x64] S1000x192 1
  inb_S192x64_S192x64_0_0 : ∀ a, (![0, 0] : Fin 2 → Nat) a + S192x64.size a ≤ S192x64.size a
  h_S192x64 : 0 < S192x64.numel
  gather_S200000x32_S50000x16x1_S50000x16x32_2_0_n_n_0_2_132_wf : GatherDims.WF S200000x32 S50000x16x1 S50000x16x32 [2] [0] [] [0] [] 2 ![1, 32]
  gather_S100000x64_S50000x16x1_S50000x16x64_2_0_n_n_0_2_164_wf : GatherDims.WF S100000x64 S50000x16x1 S50000x16x64 [2] [0] [] [0] [] 2 ![1, 64]
  dot_S1000x32_S32x64_S1000x64_1_0_0_1_n_n_wf : DotDims.WF S1000x32 S32x64 S1000x64 [1] [0] [0] [1] [] []
  dot_S1000x64_S64x64_S1000x64_1_0_0_1_n_n_wf : DotDims.WF S1000x64 S64x64 S1000x64 [1] [0] [0] [1] [] []
  dot_S1000x192_S192x64_S1000x64_1_0_0_1_n_n_wf : DotDims.WF S1000x192 S192x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x32.size a ≤ S50000x16x32.size a
  hwx0_1 : ∀ i : grid0.Coords, EltTy.bits .f32 = 32 ∨ (Rect.block (s := S50000x16x32) S1000x16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16x64.size a ≤ S50000x16x64.size a
  hwx0_2 : ∀ i : grid0.Coords, EltTy.bits .f32 = 32 ∨ (Rect.block (s := S50000x16x64) S1000x16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x64.size a ≤ S4x64.size a
  hwx0_6 : ∀ i : grid0.Coords, EltTy.bits .f32 = 32 ∨ (Rect.block (s := S4x64) S4x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x64.size a ≤ S4x64.size a
  hwx0_8 : ∀ i : grid0.Coords, EltTy.bits .f32 = 32 ∨ (Rect.block (s := S4x64) S4x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x64.size a ≤ S50000x64.size a
  hwx0_9 : ∀ i : grid0.Coords, EltTy.bits .f32 = 32 ∨ (Rect.block (s := S50000x64) S1000x64.size (cc0_transform_9 i) (hinb0_9 i)).WholeWords (EltTy.packing .f32)

variable [Facts₀]

def gather_S200000x32_S50000x16x1_S50000x16x32_2_0_n_n_0_2_132 : GatherDims S200000x32 S50000x16x1 S50000x16x32 where
  offsetDims := [2]
  collapsedSliceDims := [0]
  operandBatchingDims := []
  startIndicesBatchingDims := []
  startIndexMap := [0]
  indexVectorDim := 2
  sliceSizes := ![1, 32]
  wf := gather_S200000x32_S50000x16x1_S50000x16x32_2_0_n_n_0_2_132_wf
def gather_S100000x64_S50000x16x1_S50000x16x64_2_0_n_n_0_2_164 : GatherDims S100000x64 S50000x16x1 S50000x16x64 where
  offsetDims := [2]
  collapsedSliceDims := [0]
  operandBatchingDims := []
  startIndicesBatchingDims := []
  startIndexMap := [0]
  indexVectorDim := 2
  sliceSizes := ![1, 64]
  wf := gather_S100000x64_S50000x16x1_S50000x16x64_2_0_n_n_0_2_164_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x192_S192x64_S1000x64_1_0_0_1_n_n : DotDims S1000x192 S192x64 S1000x64 where
  lhsContracting := [1]
  rhsContracting := [0]
  lhsNonContracting := [0]
  rhsNonContracting := [1]
  lhsBatch := []
  rhsBatch := []
  wf := dot_S1000x192_S192x64_S1000x64_1_0_0_1_n_n_wf

abbrev win0_0 : Pipeline.Window sig grid0 :=
  Pipeline.Window.ofSpec (Memref.whole main_arg2) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1000x16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x32 : Shape := ⟨2, ![200000, 32]⟩
abbrev S100000x64 : Shape := ⟨2, ![100000, 64]⟩
abbrev S50000x64 : Shape := ⟨2, ![50000, 64]⟩
abbrev S32x64 : Shape := ⟨2, ![32, 64]⟩
abbrev S4x64 : Shape := ⟨2, ![4, 64]⟩
abbrev S64x64 : Shape := ⟨2, ![64, 64]⟩
abbrev S192x64 : Shape := ⟨2, ![192, 64]⟩
abbrev S50000x16 : Shape := ⟨2, ![50000, 16]⟩
abbrev S_ : Shape := ⟨0, ![]⟩
abbrev S50000x16x1 : Shape := ⟨3, ![50000, 16, 1]⟩
abbrev S50000x16x32 : Shape := ⟨3, ![50000, 16, 32]⟩
abbrev S50000x16x64 : Shape := ⟨3, ![50000, 16, 64]⟩
abbrev S1x64 : Shape := ⟨2, ![1, 64]⟩
abbrev S64 : Shape := ⟨1, ![64]⟩
abbrev S1x1x64 : Shape := ⟨3, ![1, 1, 64]⟩
abbrev S50000x192 : Shape := ⟨2, ![50000, 192]⟩

abbrev nBuf : Space → Nat
  | .hbm => 118
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S100000x64, .f32⟩
  | .hbm, ⟨2, _⟩ => ⟨S50000x64, .f32⟩
  | .hbm, ⟨3, _⟩ => ⟨S32x64, .f32⟩
  | .hbm, ⟨4, _⟩ => ⟨S4x64, .f32⟩
  | .hbm, ⟨5, _⟩ => ⟨S64x64, .f32⟩
  | .hbm, ⟨6, _⟩ => ⟨S4x64, .f32⟩
  | .hbm, ⟨7, _⟩ => ⟨S192x64, .f32⟩
  | .hbm, ⟨8, _⟩ => ⟨S4x64, .f32⟩
  | .hbm, ⟨9, _⟩ => ⟨S50000x16, .i32⟩
  | .hbm, ⟨10, _⟩ => ⟨S50000x16, .i32⟩
  | .hbm, ⟨11, _⟩ => ⟨S_, .i32⟩
  | .hbm, ⟨12, _⟩ => ⟨S50000x16, .i32⟩
  | .hbm, ⟨13, _⟩ => ⟨S50000x16, .i1⟩
  | .hbm, ⟨14, _⟩ => ⟨S_, .i32⟩
  | .hbm, ⟨15, _⟩ => ⟨S50000x16, .i32⟩
  | .hbm, ⟨16, _⟩ => ⟨S50000x16, .i32⟩
  | .hbm, ⟨17, _⟩ => ⟨S50000x16, .i32⟩
  | .hbm, ⟨18, _⟩ => ⟨S50000x16x1, .i32⟩
  | .hbm, ⟨19, _⟩ => ⟨S50000x16x32, .f32⟩
  | .hbm, ⟨20, _⟩ => ⟨S50000x16x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S1x1x64, .f32⟩
  | .hbm, ⟨30, _⟩ => ⟨S50000x16x64, .f32⟩
  | .hbm, ⟨31, _⟩ => ⟨S50000x16x64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S1x1x64, .f32⟩
  | .hbm, ⟨37, _⟩ => ⟨S50000x16x64, .f32⟩
  | .hbm, ⟨38, _⟩ => ⟨S50000x16x64, .f32⟩
  | .hbm, ⟨39, _⟩ => ⟨S1x1x64, .f32⟩
  | .hbm, ⟨40, _⟩ => ⟨S50000x16x64, .f32⟩
  | .hbm, ⟨41, _⟩ => ⟨S50000x16x64, .f32⟩
  | .hbm, ⟨42, _⟩ => ⟨S1x1x64, .f32⟩
  | .hbm, ⟨43, _⟩ => ⟨S50000x16x64, .f32⟩
  | .hbm, ⟨44, _⟩ => ⟨S50000x16x64, .f32⟩
  | .hbm, ⟨45, _⟩ => ⟨S_, .f32⟩
  | .hbm, ⟨46, _⟩ => ⟨S50000x16x64, .f32⟩
  | .hbm, ⟨47, _⟩ => ⟨S50000x16x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S50000x16, .i32⟩
  | .hbm, ⟨52, _⟩ => ⟨S50000x16, .i1⟩
  | .hbm, ⟨53, _⟩ => ⟨S_, .i32⟩
  | .hbm, ⟨54, _⟩ => ⟨S50000x16, .i32⟩
  | .hbm, ⟨55, _⟩ => ⟨S50000x16, .i32⟩
  | .hbm, ⟨56, _⟩ => ⟨S50000x16, .i32⟩
  | .hbm, ⟨57, _⟩ => ⟨S50000x16x1, .i32⟩
  | .hbm, ⟨58, _⟩ => ⟨S50000x16x64, .f32⟩
  | .hbm, ⟨59, _⟩ => ⟨S50000x16x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S1x1x64, .f32⟩
  | .hbm, ⟨69, _⟩ => ⟨S50000x16x64, .f32⟩
  | .hbm, ⟨70, _⟩ => ⟨S50000x16x64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S1x1x64, .f32⟩
  | .hbm, ⟨76, _⟩ => ⟨S50000x16x64, .f32⟩
  | .hbm, ⟨77, _⟩ => ⟨S50000x16x64, .f32⟩
  | .hbm, ⟨78, _⟩ => ⟨S1x1x64, .f32⟩
  | .hbm, ⟨79, _⟩ => ⟨S50000x16x64, .f32⟩
  | .hbm, ⟨80, _⟩ => ⟨S50000x16x64, .f32⟩
  | .hbm, ⟨81, _⟩ => ⟨S1x1x64, .f32⟩
  | .hbm, ⟨82, _⟩ => ⟨S50000x16x64, .f32⟩
  | .hbm, ⟨83, _⟩ => ⟨S50000x16x64, .f32⟩
  | .hbm, ⟨84, _⟩ => ⟨S_, .f32⟩
  | .hbm, ⟨85, _⟩ => ⟨S50000x16x64, .f32⟩
  | .hbm, ⟨86, _⟩ => ⟨S50000x16x64, .f32⟩
  | .hbm, ⟨87, _⟩ => ⟨S_, .f32⟩
  | .hbm, ⟨88, _⟩ => ⟨S50000x64, .f32⟩
  | .hbm, ⟨89, _⟩ => ⟨S50000x192, .f32⟩
  | .hbm, ⟨90, _⟩ => ⟨S50000x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S64, .f32⟩
  | .hbm, ⟨95, _⟩ => ⟨S1x64, .f32⟩
  | .hbm, ⟨96, _⟩ => ⟨S64, .f32⟩
  | .hbm, ⟨97, _⟩ => ⟨S1x64, .f32⟩
  | .hbm, ⟨98, _⟩ => ⟨S64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_c_2 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call1_cst : Ref sig .tc := ⟨.hbm, 84, rfl⟩
abbrev main_call1_v0 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_6 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_call2_cst : Ref sig .tc := ⟨.hbm, 115, rfl⟩
abbrev main_call2_v0 : Ref sig .tc := ⟨.hbm, 116, rfl⟩
abbrev main_v91 : Ref sig .tc := ⟨.hbm, 117, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  slices_S4x64_S1x64_0_0 : S4x64.Slices ![0, 0] S1x64
  shapeCasts_S1x64_S64 : S1x64.ShapeCasts S64
  slices_S4x64_S1x64_1_0 : S4x64.Slices ![1, 0] S1x64
  slices_S4x64_S1x64_2_0 : S4x64.Slices ![2, 0] S1x64
  slices_S4x64_S1x64_3_0 : S4x64.Slices ![3, 0] S1x64
  bcast_S64_S1x1x64_2 : S64.BroadcastsInDim S1x1x64 (![2] : Fin 1 → Fin S1x1x64.rank)
  bcast_S1x1x64_S50000x16x64_0_1_2 : S1x1x64.BroadcastsInDim S50000x16x64 (![0, 1, 2] : Fin 3 → Fin S50000x16x64.rank)
  bcast_S_S64 : S_.BroadcastsInDim S64 (![] : Fin 0 → Fin S64.rank)
  bcast_S_S50000x16x64 : S_.BroadcastsInDim S50000x16x64 (![] : Fin 0 → Fin S50000x16x64.rank)
  reducesTo_S50000x16x64_S50000x64_d1 : S50000x16x64.ReducesTo [1] S50000x64
  h_S_ : 0 < S_.numel
  concatenates_S50000x64_S50000x64_S50000x64_S50000x192_d1 : Shape.Concatenates [S50000x64, S50000x64, S50000x64] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S200000x32_S50000x16x1_S50000x16x32_2_0_n_n_0_2_132_wf : GatherDims.WF S200000x32 S50000x16x1 S50000x16x32 [2] [0] [] [0] [] 2 ![1, 32]
  dot_S50000x16x32_S32x64_S50000x16x64_2_0_01_1_n_n_wf : DotDims.WF S50000x16x32 S32x64 S50000x16x64 [2] [0] [0, 1] [1] [] []
  gather_S100000x64_S50000x16x1_S50000x16x64_2_0_n_n_0_2_164_wf : GatherDims.WF S100000x64 S50000x16x1 S50000x16x64 [2] [0] [] [0] [] 2 ![1, 64]
  dot_S50000x16x64_S64x64_S50000x16x64_2_0_01_1_n_n_wf : DotDims.WF S50000x16x64 S64x64 S50000x16x64 [2] [0] [0, 1] [1] [] []
  dot_S50000x192_S192x64_S50000x64_1_0_0_1_n_n_wf : DotDims.WF S50000x192 S192x64 S50000x64 [1] [0] [0] [1] [] []

variable [Facts₀]

def gather_S200000x32_S50000x16x1_S50000x16x32_2_0_n_n_0_2_132 : GatherDims S200000x32 S50000x16x1 S50000x16x32 where
  offsetDims := [2]
  collapsedSliceDims := [0]
  operandBatchingDims := []
  startIndicesBatchingDims := []
  startIndexMap := [0]
  indexVectorDim := 2
  sliceSizes := ![1, 32]
  wf := gather_S200000x32_S50000x16x1_S50000x16x32_2_0_n_n_0_2_132_wf
def dot_S50000x16x32_S32x64_S50000x16x64_2_0_01_1_n_n : DotDims S50000x16x32 S32x64 S50000x16x64 where
  lhsContracting := [2]
  rhsContracting := [0]
  lhsNonContracting := [0, 1]
  rhsNonContracting := [1]
  lhsBatch := []
  rhsBatch := []
  wf := dot_S50000x16x32_S32x64_S50000x16x64_2_0_01_1_n_n_wf
def gather_S100000x64_S50000x16x1_S50000x16x64_2_0_n_n_0_2_164 : GatherDims S100000x64 S50000x16x1 S50000x16x64 where
  offsetDims := [2]
  collapsedSliceDims := [0]
  operandBatchingDims := []
  startIndicesBatchingDims := []
  startIndexMap := [0]
  indexVectorDim := 2
  sliceSizes := ![1, 64]
  wf := gather_S100000x64_S50000x16x1_S50000x16x64_2_0_n_n_0_2_164_wf
def dot_S50000x16x64_S64x64_S50000x16x64_2_0_01_1_n_n : DotDims S50000x16x64 S64x64 S50000x16x64 where
  lhsContracting := [2]
  rhsContracting := [0]
  lhsNonContracting := [0, 1]
  rhsNonContracting := [1]
  lhsBatch := []
  rhsBatch := []
  wf := dot_S50000x16x64_S64x64_S50000x16x64_2_0_01_1_n_n_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.RowSpec.lean ====
/-
  The mathematics of one output row, with no program in sight.

  For a target voxel with its own features `xl` (64 channels) and, at each of two scales, sixteen gathered neighbour rows
  `g k`, the layer computes, channel by channel,
    pooled s q = max over the sixteen neighbours k of relu (bn_s q (∑ c, g_s k c · W_s c q)),
    out q      = relu (bn_o q (∑ j < 192, [xl, pooled 1, pooled 2] j · W_o j q)),
  where `bn q h = (h − μ q) · rsqrt (σ² q + ε) · γ q + β q` reads the four rows (γ, β, μ, σ²) of a 4 × 64 table and
  `relu x = max x 0`.  Everything is on the extended reals; ε and the two zeros are kept as the float words the programs
  print, the same words on both sides.

  A maximum that is accumulated from zero, neighbour after neighbour, is the maximum folded from −∞ over the sixteen
  neighbours, because every term is a relu and so is at least zero: `nest16_eq_fold`.
-/
import Idealize.ShloMosaic.PureOps.Ideal
import Idealize.ShloMosaic.PureOps.Ideal.Laws
import Idealize.ShloMosaic.Lib.ValueIdx

noncomputable section

open scoped BigOperators

namespace Cert.Bignn

open Idealize.ShloMosaic Idealize.ShloMosaic.ValueIdx

/-- The float zero both programs print, as an extended real. -/
abbrev fzero : EReal := Ideal.ofBits .f32 0x00000000#32
/-- The batch-norm ε both programs print (the float nearest 1e-3), as an extended real. -/
abbrev feps : EReal := Ideal.ofBits .f32 0x3A83126F#32
/-- The float −∞ the reference's max-pool starts from. -/
abbrev fninf : EReal := Ideal.ofBits .f32 0xFF800000#32

/-- `max x 0`. -/
def relu (x : EReal) : EReal := max x fzero

theorem fzero_le_relu (x : EReal) : fzero ≤ relu x := le_max_right _ _

/-- Evaluation-mode batch norm of `h` at channel `q`: rows 0..3 of the table are γ, β, μ, σ². -/
def bnAt (bn : (⟨2, ![4, 64]⟩ : Shape).Idx → EReal) (q : Fin 64) (h : EReal) : EReal :=
  (h - bn (ix2 (⟨2, by decide⟩ : Fin 4) q)) * Ideal.rsqrt (bn (ix2 (⟨3, by decide⟩ : Fin 4) q) + feps) * bn (ix2 (⟨0, by decide⟩ : Fin 4) q)
    + bn (ix2 (⟨1, by decide⟩ : Fin 4) q)

/-- One neighbour's activation at channel `q`: its `C` features through the `C × 64` weights, batch norm, relu. -/
def act {C : ℕ} (w : (⟨2, ![C, 64]⟩ : Shape).Idx → EReal) (bn : (⟨2, ![4, 64]⟩ : Shape).Idx → EReal) (q : Fin 64)
    (g : Fin C → EReal) : EReal :=
  relu (bnAt bn q (∑ c : Fin C, g c * w (ix2 c q)))

/-- The max-pool over the sixteen neighbours, folded from −∞. -/
def pooled {C : ℕ} (w : (⟨2, ![C, 64]⟩ : Shape).Idx → EReal) (bn : (⟨2, ![4, 64]⟩ : Shape).Idx → EReal)
    (g : Fin 16 → Fin C → EReal) (q : Fin 64) : EReal :=
  (Finset.univ : Finset (Fin 16)).fold max fninf (fun k => act w bn q (g k))

/-- Three 64-channel rows laid end to end. -/
def cat3 (a b c : Fin 64 → EReal) (j : Fin 192) : EReal :=
  if h : j.val < 64 then a ⟨j.val, h⟩
  else if h2 : j.val < 128 then b ⟨j.val - 64, by omega⟩
  else c ⟨j.val - 128, by have := j.isLt; omega⟩

/-- One output row at channel `q`. -/
def rowOut (w1 : (⟨2, ![32, 64]⟩ : Shape).Idx → EReal) (bn1 : (⟨2, ![4, 64]⟩ : Shape).Idx → EReal)
    (w2 : (⟨2, ![64, 64]⟩ : Shape).Idx → EReal) (bn2 : (⟨2, ![4, 64]⟩ : Shape).Idx → EReal)
    (wo : (⟨2, ![192, 64]⟩ : Shape).Idx → EReal) (bno : (⟨2, ![4, 64]⟩ : Shape).Idx → EReal)
    (xl : Fin 64 → EReal) (g1 : Fin 16 → Fin 32 → EReal) (g2 : Fin 16 → Fin 64 → EReal) (q : Fin 64) : EReal :=
  relu (bnAt bno q (∑ j : Fin 192, cat3 xl (pooled w1 bn1 g1) (pooled w2 bn2 g2) j * wo (ix2 j q)))

theorem fninf_eq_bot : fninf = ⊥ := by simp [fninf, Ideal.ofBits, Ideal.ieee]

/-- Sixteen terms, each at least `z`, accumulated by `max` from `z` in order, are their maximum folded from −∞. -/
theorem nest16_eq_fold (z : EReal) (r : Fin 16 → EReal) (hz : ∀ k, z ≤ r k) :
    max (max (max (max (max (max (max (max (max (max (max (max (max (max (max (max z
      (r ⟨0, by decide⟩)) (r ⟨1, by decide⟩)) (r ⟨2, by decide⟩)) (r ⟨3, by decide⟩)) (r ⟨4, by decide⟩)) (r ⟨5, by decide⟩))
      (r ⟨6, by decide⟩)) (r ⟨7, by decide⟩)) (r ⟨8, by decide⟩)) (r ⟨9, by decide⟩)) (r ⟨10, by decide⟩)) (r ⟨11, by decide⟩))
      (r ⟨12, by decide⟩)) (r ⟨13, by decide⟩)) (r ⟨14, by decide⟩)) (r ⟨15, by decide⟩)
    = (Finset.univ : Finset (Fin 16)).fold max fninf r := by
  apply le_antisymm
  · have hk : ∀ k : Fin 16, r k ≤ (Finset.univ : Finset (Fin 16)).fold max fninf r := fun k =>
      (Finset.le_fold_max _).2 (Or.inr ⟨k, Finset.mem_univ _, le_rfl⟩)
    have h0 : z ≤ (Finset.univ : Finset (Fin 16)).fold max fninf r := (hz ⟨0, by decide⟩).trans (hk _)
    simp only [max_le_iff]
    refine ⟨⟨⟨⟨⟨⟨⟨⟨⟨⟨⟨⟨⟨⟨⟨⟨h0, hk _⟩, hk _⟩, hk _⟩, hk _⟩, hk _⟩, hk _⟩, hk _⟩, hk _⟩, hk _⟩, hk _⟩, hk _⟩, hk _⟩, hk _⟩, hk _⟩, hk _⟩, hk _⟩
  · refine (Finset.fold_max_le _).2 ⟨by rw [fninf_eq_bot]; exact bot_le, fun k _ => ?_⟩
    fin_cases k <;> simp only [le_max_iff, le_refl, true_or, or_true]

end Cert.Bignn

end
-- ==== Proof.LayoutAt.lean ====
/-
  Reading the layout steps of the layer at an index, for any number of rows.

  * a rank-3 array with a unit middle axis, cast to a matrix, reads at (i, j) the operand at (i, 0, j);
  * one row of a 4 × 64 parameter table — sliced out, flattened to a vector, made a row again and broadcast down
    `n` rows — reads at (p, q) the table at (row, q);
  * three `n × 64` matrices joined along the channel axis read, at (p, j), the first, second or third at (p, j),
    (p, j − 64), (p, j − 128) according to which third of the 192 channels `j` falls in: `cat3` of the three rows.
-/
import Idealize.ShloMosaic.Lib.ValueLayout
import Idealize.ShloMosaic.Lib.Pipeline.Value
import proofs.«176574_j52956946760189_1_alg».proof.Proof.RowSpec

noncomputable section

namespace Cert.Bignn

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Row `o` of a `4 × 64` table, sliced, flattened, made a row again and broadcast over `n` rows, reads at `(p, q)`
    the table at `(o, q)`. -/
theorem tableRow_apply {n : ℕ} (bn : (⟨2, ![4, 64]⟩ : Shape).Idx → α) (o : ℕ) (ho : o < 4)
    (hs : (⟨2, ![4, 64]⟩ : Shape).Slices ![o, 0] ⟨2, ![1, 64]⟩)
    (h1 : (⟨2, ![1, 64]⟩ : Shape).ShapeCasts ⟨1, ![64]⟩) (h2 : (⟨1, ![64]⟩ : Shape).ShapeCasts ⟨2, ![1, 64]⟩)
    (hb : (⟨2, ![1, 64]⟩ : Shape).Broadcasts ⟨2, ![n, 64]⟩) (p : Fin n) (q : Fin 64) :
    broadcastTo ⟨2, ![n, 64]⟩ (shapeCast ⟨2, ![1, 64]⟩ (shapeCast ⟨1, ![64]⟩
      (extractStridedSlice ⟨2, ![1, 64]⟩ ![o, 0] bn hs) h1) h2) hb (ix2 p q) = bn (ix2 (⟨o, ho⟩ : Fin 4) q) := by
  rw [broadcastTo_1b_ab_apply, shapeCast_a_1a_apply, shapeCast_1a_a_apply]
  exact slice2_axis0_apply o bn hs (0 : Fin 1) q ⟨o, ho⟩ rfl

/-- Three `n × 64` matrices joined along the channels, read at `(p, j)`. -/
theorem concat3_apply {n : ℕ} (x y z : (⟨2, ![n, 64]⟩ : Shape).Idx → EReal)
    (h : Shape.Concatenates ([⟨(⟨2, ![n, 64]⟩ : Shape), x⟩, ⟨(⟨2, ![n, 64]⟩ : Shape), y⟩, ⟨(⟨2, ![n, 64]⟩ : Shape), z⟩].map
      (fun (pc : (s : Shape) × (s.Idx → EReal)) => pc.1)) ⟨2, ![n, 192]⟩ 1) (p : Fin n) (j : Fin 192) :
    concatenate ⟨2, ![n, 192]⟩ 1 [⟨(⟨2, ![n, 64]⟩ : Shape), x⟩, ⟨(⟨2, ![n, 64]⟩ : Shape), y⟩, ⟨(⟨2, ![n, 64]⟩ : Shape), z⟩] h (ix2 p j)
      = cat3 (fun i => x (ix2 p i)) (fun i => y (ix2 p i)) (fun i => z (ix2 p i)) j := by
  unfold cat3
  by_cases h0 : j.val < 64
  · rw [dif_pos h0]
    refine concatenate_apply_piece (1 : Fin 2) _ h (ix2 p j) 0 (by show (0 : ℕ) < 3; omega) ⟨2, ![n, 64]⟩ x rfl rfl 0 rfl
      (ix2 p ⟨j.val, h0⟩) (fun b hb => ?_) ?_
    · match b with
      | ⟨0, _⟩ => rfl
      | ⟨1, _⟩ => exact absurd rfl hb
    · show 0 + j.val = j.val
      omega
  · rw [dif_neg h0]
    by_cases h1 : j.val < 128
    · rw [dif_pos h1]
      refine concatenate_apply_piece (1 : Fin 2) _ h (ix2 p j) 1 (by show (1 : ℕ) < 3; omega) ⟨2, ![n, 64]⟩ y rfl rfl 64 rfl
        (ix2 p ⟨j.val - 64, by omega⟩) (fun b hb => ?_) ?_
      · match b with
        | ⟨0, _⟩ => rfl
        | ⟨1, _⟩ => exact absurd rfl hb
      · show 64 + (j.val - 64) = j.val
        omega
    · rw [dif_neg h1]
      refine concatenate_apply_piece (1 : Fin 2) _ h (ix2 p j) 2 (by show (2 : ℕ) < 3; omega) ⟨2, ![n, 64]⟩ z rfl rfl 128 rfl
        (ix2 p ⟨j.val - 128, by have := j.isLt; omega⟩) (fun b hb => ?_) ?_
      · match b with
        | ⟨0, _⟩ => rfl
        | ⟨1, _⟩ => exact absurd rfl hb
      · show 128 + (j.val - 128) = j.val
        omega

end Cert.Bignn

end
-- ==== Proof.KernelBlock.lean ====
/-
  The kernel body's arithmetic on one tile of a thousand target voxels, written as the layer it is.

  The body as printed is one long straight line (the sixteen-neighbour loops of both scales unrolled).  Here the same
  operations are grouped: `bnRelu` (batch norm with one 4 × 64 table, then relu), `nbr32` / `nbr64` (neighbour `k`'s
  features, rounded to bf16, through the bf16 weights), `pool32` / `pool64` (the running maximum over the sixteen
  neighbours, started at zero) and `fusedBlock` (own features and the two pooled ones joined, through the output
  weights, batch norm, relu).  `out_eq`: what the body leaves in the output tile is `fusedBlock` of the nine loaded
  tiles, by unfolding.

  At the ideal instance (`fusedBlock_apply`) entry (p, q) of the tile is `Bignn.rowOut` of row p of the loaded tiles:
  roundings are the identity, a matmul into zero is the sum of products over the contracted channel, the parameter rows
  broadcast down the tile, and the maximum accumulated from zero is the maximum over the neighbours.
-/
import proofs.«176574_j52956946760189_1_alg».proof.Proof.Gen.KernelIdeal.Frame
import proofs.«176574_j52956946760189_1_alg».proof.Proof.RowSpec
import proofs.«176574_j52956946760189_1_alg».proof.Proof.LayoutAt
import Idealize.ShloMosaic.Lib.ValueIdx
import Idealize.ShloMosaic.Lib.ValueLayout
import Idealize.ShloMosaic.PureOps.Ideal.Laws

noncomputable section

namespace Cert.KernelIdeal.Blk

open Cert.KernelIdeal Cert.KernelIdeal.Gen Idealize.ShloMosaic Idealize.ShloMosaic.ValueIdx Idealize.SL.Sem

section AnyInstance

variable {F : FTy → Type} [FloatOps F]

/-- Batch norm of a tile with the table's rows (γ, β, μ, σ²), then relu. -/
def bnRelu (bn : Vec F S4x64 .f32) (h : FVec F S1000x64 .f32) : FVec F S1000x64 .f32 :=
  maximumf
    (addf
      (mulf
        (mulf
          (subf h (broadcastTo S1000x64 (shapeCast S1x64 (shapeCast S64 (extractStridedSlice S1x64 ![2, 0] bn slices_S4x64_o2_0_S1x64) shapeCasts_S1x64_S64) shapeCasts_S64_S1x64) broadcasts_S1x64_S1000x64))
          (broadcastTo S1000x64 (shapeCast S1x64 (rsqrt (addf (shapeCast S64 (extractStridedSlice S1x64 ![3, 0] bn slices_S4x64_o3_0_S1x64) shapeCasts_S1x64_S64) (broadcast S64 (Scalar.ofBits .f32 0x3A83126F#32)))) shapeCasts_S64_S1x64) broadcasts_S1x64_S1000x64))
        (broadcastTo S1000x64 (shapeCast S1x64 (shapeCast S64 (extractStridedSlice S1x64 ![0, 0] bn slices_S4x64_o0_0_S1x64) shapeCasts_S1x64_S64) shapeCasts_S64_S1x64) broadcasts_S1x64_S1000x64))
      (broadcastTo S1000x64 (shapeCast S1x64 (shapeCast S64 (extractStridedSlice S1x64 ![1, 0] bn slices_S4x64_o1_0_S1x64) shapeCasts_S1x64_S64) shapeCasts_S64_S1x64) broadcasts_S1x64_S1000x64))
    (broadcast S1000x64 (Scalar.ofBits .f32 0x00000000#32))

/-- Neighbour `k` of the first scale (32 features) through its weights. -/
def nbr32 (k : ℕ) (hs : S1000x16x32.Slices ![0, k, 0] S1000x1x32) (g : FVec F S1000x16x32 .f32) (w : FVec F S32x64 .bf16) :
    FVec F S1000x64 .f32 :=
  matmul dot_S1000x32_S32x64_S1000x64_1_0_0_1_n_n none
    (truncf .bf16 (shapeCast S1000x32 (extractStridedSlice S1000x1x32 ![0, k, 0] g hs) shapeCasts_S1000x1x32_S1000x32) bitsLt_bf16_f32)
    w (constant S1000x64 .f32 0x00000000#32)

/-- Neighbour `k` of the second scale (64 features) through its weights. -/
def nbr64 (k : ℕ) (hs : S1000x16x64.Slices ![0, k, 0] S1000x1x64) (g : FVec F S1000x16x64 .f32) (w : FVec F S64x64 .bf16) :
    FVec F S1000x64 .f32 :=
  matmul dot_S1000x64_S64x64_S1000x64_1_0_0_1_n_n none
    (truncf .bf16 (shapeCast S1000x64 (extractStridedSlice S1000x1x64 ![0, k, 0] g hs) shapeCasts_S1000x1x64_S1000x64) bitsLt_bf16_f32)
    w (constant S1000x64 .f32 0x00000000#32)

/-- The first scale's max-pool: the maximum accumulated from zero over the sixteen neighbours, in order. -/
def pool32 (g : FVec F S1000x16x32 .f32) (w : FVec F S32x64 .bf16) (bn : Vec F S4x64 .f32) : FVec F S1000x64 .f32 :=
  maximumf (maximumf (maximumf (maximumf (maximumf (maximumf (maximumf (maximumf (maximumf (maximumf (maximumf (maximumf (maximumf (maximumf (maximumf (maximumf (broadcast S1000x64 (Scalar.ofBits .f32 0x00000000#32))
      (bnRelu bn (nbr32 0 slices_S1000x16x32_o0_0_0_S1000x1x32 g w)))
      (bnRelu bn (nbr32 1 slices_S1000x16x32_o0_1_0_S1000x1x32 g w)))
      (bnRelu bn (nbr32 2 slices_S1000x16x32_o0_2_0_S1000x1x32 g w)))
      (bnRelu bn (nbr32 3 slices_S1000x16x32_o0_3_0_S1000x1x32 g w)))
      (bnRelu bn (nbr32 4 slices_S1000x16x32_o0_4_0_S1000x1x32 g w)))
      (bnRelu bn (nbr32 5 slices_S1000x16x32_o0_5_0_S1000x1x32 g w)))
      (bnRelu bn (nbr32 6 slices_S1000x16x32_o0_6_0_S1000x1x32 g w)))
      (bnRelu bn (nbr32 7 slices_S1000x16x32_o0_7_0_S1000x1x32 g w)))
      (bnRelu bn (nbr32 8 slices_S1000x16x32_o0_8_0_S1000x1x32 g w)))
      (bnRelu bn (nbr32 9 slices_S1000x16x32_o0_9_0_S1000x1x32 g w)))
      (bnRelu bn (nbr32 10 slices_S1000x16x32_o0_10_0_S1000x1x32 g w)))
      (bnRelu bn (nbr32 11 slices_S1000x16x32_o0_11_0_S1000x1x32 g w)))
      (bnRelu bn (nbr32 12 slices_S1000x16x32_o0_12_0_S1000x1x32 g w)))
      (bnRelu bn (nbr32 13 slices_S1000x16x32_o0_13_0_S1000x1x32 g w)))
      (bnRelu bn (nbr32 14 slices_S1000x16x32_o0_14_0_S1000x1x32 g w)))
      (bnRelu bn (nbr32 15 slices_S1000x16x32_o0_15_0_S1000x1x32 g w))

/-- The second scale's max-pool. -/
def pool64 (g : FVec F S1000x16x64 .f32) (w : FVec F S64x64 .bf16) (bn : Vec F S4x64 .f32) : FVec F S1000x64 .f32 :=
  maximumf (maximumf (maximumf (maximumf (maximumf (maximumf (maximumf (maximumf (maximumf (maximumf (maximumf (maximumf (maximumf (maximumf (maximumf (maximumf (broadcast S1000x64 (Scalar.ofBits .f32 0x00000000#32))
      (bnRelu bn (nbr64 0 slices_S1000x16x64_o0_0_0_S1000x1x64 g w)))
      (bnRelu bn (nbr64 1 slices_S1000x16x64_o0_1_0_S1000x1x64 g w)))
      (bnRelu bn (nbr64 2 slices_S1000x16x64_o0_2_0_S1000x1x64 g w)))
      (bnRelu bn (nbr64 3 slices_S1000x16x64_o0_3_0_S1000x1x64 g w)))
      (bnRelu bn (nbr64 4 slices_S1000x16x64_o0_4_0_S1000x1x64 g w)))
      (bnRelu bn (nbr64 5 slices_S1000x16x64_o0_5_0_S1000x1x64 g w)))
      (bnRelu bn (nbr64 6 slices_S1000x16x64_o0_6_0_S1000x1x64 g w)))
      (bnRelu bn (nbr64 7 slices_S1000x16x64_o0_7_0_S1000x1x64 g w)))
      (bnRelu bn (nbr64 8 slices_S1000x16x64_o0_8_0_S1000x1x64 g w)))
      (bnRelu bn (nbr64 9 slices_S1000x16x64_o0_9_0_S1000x1x64 g w)))
      (bnRelu bn (nbr64 10 slices_S1000x16x64_o0_10_0_S1000x1x64 g w)))
      (bnRelu bn (nbr64 11 slices_S1000x16x64_o0_11_0_S1000x1x64 g w)))
      (bnRelu bn (nbr64 12 slices_S1000x16x64_o0_12_0_S1000x1x64 g w)))
      (bnRelu bn (nbr64 13 slices_S1000x16x64_o0_13_0_S1000x1x64 g w)))
      (bnRelu bn (nbr64 14 slices_S1000x16x64_o0_14_0_S1000x1x64 g w)))
      (bnRelu bn (nbr64 15 slices_S1000x16x64_o0_15_0_S1000x1x64 g w))

/-- The whole body on its nine loaded tiles. -/
def fusedBlock (xl : Vec F S1000x64 .f32) (g1 : Vec F S1000x16x32 .f32) (g2 : Vec F S1000x16x64 .f32) (w1 : Vec F S32x64 .f32)
    (bn1 : Vec F S4x64 .f32) (w2 : Vec F S64x64 .f32) (bn2 : Vec F S4x64 .f32) (wo : Vec F S192x64 .f32) (bno : Vec F S4x64 .f32) :
    FVec F S1000x64 .f32 :=
  bnRelu bno
    (matmul dot_S1000x192_S192x64_S1000x64_1_0_0_1_n_n none
      (truncf .bf16 (concatenate S1000x192 1 [⟨S1000x64, xl⟩,
        ⟨S1000x64, pool32 (shapeCast S1000x16x32 g1 shapeCasts_S1000x16x32_S1000x16x32) (truncf .bf16 w1 bitsLt_bf16_f32) bn1⟩,
        ⟨S1000x64, pool64 (shapeCast S1000x16x64 g2 shapeCasts_S1000x16x64_S1000x16x64) (truncf .bf16 w2 bitsLt_bf16_f32) bn2⟩]
        concatenates_S1000x64_S1000x64_S1000x64_S1000x192_d1) bitsLt_bf16_f32)
      (truncf .bf16 wo bitsLt_bf16_f32) (constant S1000x64 .f32 0x00000000#32))

set_option maxRecDepth 65536 in
set_option maxHeartbeats 4000000 in
/-- What the body stores in the output tile is `fusedBlock` of the loaded tiles. -/
theorem out_eq (x0 : Vec F S1000x64 .f32) (x1 : Vec F S1000x16x32 .f32) (x2 : Vec F S1000x16x64 .f32) (x3 : Vec F S32x64 .f32)
    (x4 : Vec F S4x64 .f32) (x5 : Vec F S64x64 .f32) (x6 : Vec F S4x64 .f32) (x7 : Vec F S192x64 .f32) (x8 : Vec F S4x64 .f32) :
    out0_9 x0 x1 x2 x3 x4 x5 x6 x7 x8
      = View.canon [⟨r0_5, fusedBlock (View.ld x0 r0_5) (View.ld x1 r0_0) (View.ld x2 r0_3) (View.ld x3 r0_1) (View.ld x4 r0_2)
          (View.ld x5 r0_4) (View.ld x6 r0_2) (View.ld x7 r0_6) (View.ld x8 r0_2)⟩] := rfl

end AnyInstance

end Cert.KernelIdeal.Blk

end
-- ==== Proof.KernelBlockAt.lean ====
/-
  The tile's arithmetic at the ideal instance, entry by entry.

  On the extended reals a rounding to bf16 is the identity and a matmul into a zero accumulator is the plain sum of
  products over the contracted channel (32, 64 or 192 of them); the sliced neighbour `k` of a gathered tile is the
  tile's row at neighbour `k`; a parameter row broadcast down the tile is the table's entry; the joined 192 channels
  are the own features followed by the two pooled ones.  So entry (p, q) of `fusedBlock` is `Bignn.rowOut` of row p of
  the loaded tiles, the running maximum from zero being the fold of `max` from −∞ since every neighbour's term is a relu.
-/
import proofs.«176574_j52956946760189_1_alg».proof.Proof.KernelBlock

noncomputable section

namespace Cert.KernelIdeal.Blk

open Cert.KernelIdeal Cert.KernelIdeal.Gen Idealize.ShloMosaic Idealize.ShloMosaic.ValueIdx Idealize.SL.Sem
open Cert.Bignn

theorem lhs32_0 (i : S1000x64.Idx) (q : dot_S1000x32_S32x64_S1000x64_1_0_0_1_n_n.contr.Idx) :
    (dot_S1000x32_S32x64_S1000x64_1_0_0_1_n_n.lhsIdx i q 0).val = (i 0).val := by
  unfold DotDims.lhsIdx
  rw [dif_neg (show ¬(0 : Fin S1000x32.rank) ∈ dot_S1000x32_S32x64_S1000x64_1_0_0_1_n_n.lhsBatch by decide), dif_pos (show (0 : Fin S1000x32.rank) ∈ dot_S1000x32_S32x64_S1000x64_1_0_0_1_n_n.lhsNonContracting by decide)]
  rfl
theorem lhs32_1 (i : S1000x64.Idx) (q : dot_S1000x32_S32x64_S1000x64_1_0_0_1_n_n.contr.Idx) :
    (dot_S1000x32_S32x64_S1000x64_1_0_0_1_n_n.lhsIdx i q 1).val = (q ⟨0, by decide⟩).val :=
  dot_S1000x32_S32x64_S1000x64_1_0_0_1_n_n.lhsIdx_val_of_single rfl i q
theorem rhs32_0 (i : S1000x64.Idx) (q : dot_S1000x32_S32x64_S1000x64_1_0_0_1_n_n.contr.Idx) :
    (dot_S1000x32_S32x64_S1000x64_1_0_0_1_n_n.rhsIdx i q 0).val = (q ⟨0, by decide⟩).val :=
  dot_S1000x32_S32x64_S1000x64_1_0_0_1_n_n.rhsIdx_val_of_single rfl i q
theorem rhs32_1 (i : S1000x64.Idx) (q : dot_S1000x32_S32x64_S1000x64_1_0_0_1_n_n.contr.Idx) :
    (dot_S1000x32_S32x64_S1000x64_1_0_0_1_n_n.rhsIdx i q 1).val = (i 1).val := by
  unfold DotDims.rhsIdx
  rw [dif_neg (show ¬(1 : Fin S32x64.rank) ∈ dot_S1000x32_S32x64_S1000x64_1_0_0_1_n_n.rhsBatch by decide), dif_pos (show (1 : Fin S32x64.rank) ∈ dot_S1000x32_S32x64_S1000x64_1_0_0_1_n_n.rhsNonContracting by decide)]
  rfl

/-- The tile's product with the 32-channel weights into zero, at (p, q): the sum over the 32 channels. -/
theorem matmul32_apply (l : FVec Ideal S1000x32 .bf16) (r : FVec Ideal S32x64 .bf16) (p : Fin 1000) (q : Fin 64) :
    matmul dot_S1000x32_S32x64_S1000x64_1_0_0_1_n_n none l r (constant S1000x64 .f32 0x00000000#32) (ix2 p q)
      = ∑ c : Fin 32, l (ix2 p c) * r (ix2 c q) := by
  simp only [matmul]
  rw [Ideal.matmul_constant_zero_apply, ← Equiv.sum_comp (ValueIdx.contrEquiv1 dot_S1000x32_S32x64_S1000x64_1_0_0_1_n_n 32 rfl rfl).symm]
  refine Finset.sum_congr rfl fun k _ => ?_
  have hk := ValueIdx.contrEquiv1_symm_val dot_S1000x32_S32x64_S1000x64_1_0_0_1_n_n 32 rfl rfl k
  have el : dot_S1000x32_S32x64_S1000x64_1_0_0_1_n_n.lhsIdx (ix2 p q) ((ValueIdx.contrEquiv1 dot_S1000x32_S32x64_S1000x64_1_0_0_1_n_n 32 rfl rfl).symm k) = ix2 p k := funext fun a => Fin.ext (by
    match a with
    | ⟨0, _⟩ => exact lhs32_0 _ _
    | ⟨1, _⟩ => exact (lhs32_1 _ _).trans hk)
  have er : dot_S1000x32_S32x64_S1000x64_1_0_0_1_n_n.rhsIdx (ix2 p q) ((ValueIdx.contrEquiv1 dot_S1000x32_S32x64_S1000x64_1_0_0_1_n_n 32 rfl rfl).symm k) = ix2 k q := funext fun a => Fin.ext (by
    match a with
    | ⟨0, _⟩ => exact (rhs32_0 _ _).trans hk
    | ⟨1, _⟩ => exact rhs32_1 _ _)
  rw [el, er]

theorem lhs64_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs64_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs64_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs64_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The tile's product with the 64-channel weights into zero, at (p, q): the sum over the 64 channels. -/
theorem matmul64_apply (l : FVec Ideal S1000x64 .bf16) (r : FVec Ideal S64x64 .bf16) (p : Fin 1000) (q : Fin 64) :
    matmul dot_S1000x64_S64x64_S1000x64_1_0_0_1_n_n none l r (constant S1000x64 .f32 0x00000000#32) (ix2 p q)
      = ∑ c : Fin 64, l (ix2 p c) * r (ix2 c q) := by
  simp only [matmul]
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p q) ((ValueIdx.contrEquiv1 dot_S1000x64_S64x64_S1000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S1000x64_S64x64_S1000x64_1_0_0_1_n_n.rhsIdx (ix2 p q) ((ValueIdx.contrEquiv1 dot_S1000x64_S64x64_S1000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

theorem lhs192_0 (i : S1000x64.Idx) (q : dot_S1000x192_S192x64_S1000x64_1_0_0_1_n_n.contr.Idx) :
    (dot_S1000x192_S192x64_S1000x64_1_0_0_1_n_n.lhsIdx i q 0).val = (i 0).val := by
  unfold DotDims.lhsIdx
  rw [dif_neg (show ¬(0 : Fin S1000x192.rank) ∈ dot_S1000x192_S192x64_S1000x64_1_0_0_1_n_n.lhsBatch by decide), dif_pos (show (0 : Fin S1000x192.rank) ∈ dot_S1000x192_S192x64_S1000x64_1_0_0_1_n_n.lhsNonContracting by decide)]
  rfl
theorem lhs192_1 (i : S1000x64.Idx) (q : dot_S1000x192_S192x64_S1000x64_1_0_0_1_n_n.contr.Idx) :
    (dot_S1000x192_S192x64_S1000x64_1_0_0_1_n_n.lhsIdx i q 1).val = (q ⟨0, by decide⟩).val :=
  dot_S1000x192_S192x64_S1000x64_1_0_0_1_n_n.lhsIdx_val_of_single rfl i q
theorem rhs192_0 (i : S1000x64.Idx) (q : dot_S1000x192_S192x64_S1000x64_1_0_0_1_n_n.contr.Idx) :
    (dot_S1000x192_S192x64_S1000x64_1_0_0_1_n_n.rhsIdx i q 0).val = (q ⟨0, by decide⟩).val :=
  dot_S1000x192_S192x64_S1000x64_1_0_0_1_n_n.rhsIdx_val_of_single rfl i q
theorem rhs192_1 (i : S1000x64.Idx) (q : dot_S1000x192_S192x64_S1000x64_1_0_0_1_n_n.contr.Idx) :
    (dot_S1000x192_S192x64_S1000x64_1_0_0_1_n_n.rhsIdx i q 1).val = (i 1).val := by
  unfold DotDims.rhsIdx
  rw [dif_neg (show ¬(1 : Fin S192x64.rank) ∈ dot_S1000x192_S192x64_S1000x64_1_0_0_1_n_n.rhsBatch by decide), dif_pos (show (1 : Fin S192x64.rank) ∈ dot_S1000x192_S192x64_S1000x64_1_0_0_1_n_n.rhsNonContracting by decide)]
  rfl

/-- The tile's product with the 192-channel weights into zero, at (p, q): the sum over the 192 channels. -/
theorem matmul192_apply (l : FVec Ideal S1000x192 .bf16) (r : FVec Ideal S192x64 .bf16) (p : Fin 1000) (q : Fin 64) :
    matmul dot_S1000x192_S192x64_S1000x64_1_0_0_1_n_n none l r (constant S1000x64 .f32 0x00000000#32) (ix2 p q)
      = ∑ c : Fin 192, l (ix2 p c) * r (ix2 c q) := by
  simp only [matmul]
  rw [Ideal.matmul_constant_zero_apply, ← Equiv.sum_comp (ValueIdx.contrEquiv1 dot_S1000x192_S192x64_S1000x64_1_0_0_1_n_n 192 rfl rfl).symm]
  refine Finset.sum_congr rfl fun k _ => ?_
  have hk := ValueIdx.contrEquiv1_symm_val dot_S1000x192_S192x64_S1000x64_1_0_0_1_n_n 192 rfl rfl k
  have el : dot_S1000x192_S192x64_S1000x64_1_0_0_1_n_n.lhsIdx (ix2 p q) ((ValueIdx.contrEquiv1 dot_S1000x192_S192x64_S1000x64_1_0_0_1_n_n 192 rfl rfl).symm k) = ix2 p k := funext fun a => Fin.ext (by
    match a with
    | ⟨0, _⟩ => exact lhs192_0 _ _
    | ⟨1, _⟩ => exact (lhs192_1 _ _).trans hk)
  have er : dot_S1000x192_S192x64_S1000x64_1_0_0_1_n_n.rhsIdx (ix2 p q) ((ValueIdx.contrEquiv1 dot_S1000x192_S192x64_S1000x64_1_0_0_1_n_n 192 rfl rfl).symm k) = ix2 k q := funext fun a => Fin.ext (by
    match a with
    | ⟨0, _⟩ => exact (rhs192_0 _ _).trans hk
    | ⟨1, _⟩ => exact rhs192_1 _ _)
  rw [el, er]

/-- A rounding to a narrower format is the identity on the extended reals. -/
theorem truncf_eq {s : Shape} {φ ψ : FTy} (a : FVec Ideal s φ) (h : ψ.bits < φ.bits) : (truncf ψ a h : FVec Ideal s ψ) = a := rfl

/-- Batch norm then relu of a tile, at (p, q). -/
theorem bnRelu_apply (bn : Vec Ideal S4x64 .f32) (h : FVec Ideal S1000x64 .f32) (p : Fin 1000) (q : Fin 64) :
    bnRelu bn h (ix2 p q) = relu (bnAt bn q (h (ix2 p q))) := by
  have e2 := tableRow_apply (n := 1000) bn 2 (by decide) slices_S4x64_o2_0_S1x64 shapeCasts_S1x64_S64 shapeCasts_S64_S1x64 broadcasts_S1x64_S1000x64 p q
  have e0 := tableRow_apply (n := 1000) bn 0 (by decide) slices_S4x64_o0_0_S1x64 shapeCasts_S1x64_S64 shapeCasts_S64_S1x64 broadcasts_S1x64_S1000x64 p q
  have e1 := tableRow_apply (n := 1000) bn 1 (by decide) slices_S4x64_o1_0_S1x64 shapeCasts_S1x64_S64 shapeCasts_S64_S1x64 broadcasts_S1x64_S1000x64 p q
  have e3 : broadcastTo S1000x64 (shapeCast S1x64 (rsqrt (addf (shapeCast S64 (extractStridedSlice S1x64 ![3, 0] bn slices_S4x64_o3_0_S1x64) shapeCasts_S1x64_S64)
      (broadcast S64 (Scalar.ofBits .f32 0x3A83126F#32 : Ideal .f32)))) shapeCasts_S64_S1x64) broadcasts_S1x64_S1000x64 (ix2 p q)
      = Ideal.rsqrt (bn (ix2 (⟨3, by decide⟩ : Fin 4) q) + feps) := by
    rw [broadcastTo_1b_ab_apply, shapeCast_a_1a_apply]
    show Ideal.rsqrt (shapeCast S64 (extractStridedSlice S1x64 ![3, 0] bn slices_S4x64_o3_0_S1x64) shapeCasts_S1x64_S64 (ix1 q) + feps) = _
    rw [shapeCast_1a_a_apply, slice2_axis0_apply 3 bn slices_S4x64_o3_0_S1x64 (0 : Fin 1) q ⟨3, by decide⟩ rfl]
  unfold bnRelu relu bnAt
  simp only [maximumf_apply, addf_apply, mulf_apply, subf_apply, broadcast_apply]
  rw [e2, e3, e0, e1]
  rfl

/-- Neighbour `k` of the first scale through its weights, at (p, q). -/
theorem nbr32_apply (k : ℕ) (hk : k < 16) (hs : S1000x16x32.Slices ![0, k, 0] S1000x1x32) (g : FVec Ideal S1000x16x32 .f32)
    (w : FVec Ideal S32x64 .bf16) (p : Fin 1000) (q : Fin 64) :
    nbr32 k hs g w (ix2 p q) = ∑ c : Fin 32, g (ix3 p (⟨k, hk⟩ : Fin 16) c) * w (ix2 c q) := by
  unfold nbr32
  rw [matmul32_apply]
  refine Finset.sum_congr rfl fun c _ => ?_
  rw [truncf_apply, shapeCast_a1b_ab_apply, slice3_axis1_apply k g hs p (0 : Fin 1) c ⟨k, hk⟩ rfl]

/-- Neighbour `k` of the second scale through its weights, at (p, q). -/
theorem nbr64_apply (k : ℕ) (hk : k < 16) (hs : S1000x16x64.Slices ![0, k, 0] S1000x1x64) (g : FVec Ideal S1000x16x64 .f32)
    (w : FVec Ideal S64x64 .bf16) (p : Fin 1000) (q : Fin 64) :
    nbr64 k hs g w (ix2 p q) = ∑ c : Fin 64, g (ix3 p (⟨k, hk⟩ : Fin 16) c) * w (ix2 c q) := by
  unfold nbr64
  rw [matmul64_apply]
  refine Finset.sum_congr rfl fun c _ => ?_
  rw [truncf_apply, shapeCast_a1b_ab_apply, slice3_axis1_apply k g hs p (0 : Fin 1) c ⟨k, hk⟩ rfl]

/-- The first scale's pool at (p, q): the maximum over the sixteen neighbours of row p. -/
theorem pool32_apply (g : FVec Ideal S1000x16x32 .f32) (w : FVec Ideal S32x64 .bf16) (bn : Vec Ideal S4x64 .f32) (p : Fin 1000) (q : Fin 64) :
    pool32 g w bn (ix2 p q) = pooled w bn (fun k c => g (ix3 p k c)) q := by
  unfold pool32 pooled
  simp only [maximumf_apply, broadcast_apply, bnRelu_apply]
  rw [nbr32_apply 0 (by decide), nbr32_apply 1 (by decide), nbr32_apply 2 (by decide), nbr32_apply 3 (by decide), nbr32_apply 4 (by decide), nbr32_apply 5 (by decide), nbr32_apply 6 (by decide), nbr32_apply 7 (by decide), nbr32_apply 8 (by decide), nbr32_apply 9 (by decide), nbr32_apply 10 (by decide), nbr32_apply 11 (by decide), nbr32_apply 12 (by decide), nbr32_apply 13 (by decide), nbr32_apply 14 (by decide), nbr32_apply 15 (by decide)]
  exact nest16_eq_fold fzero (fun k => act w bn q (fun c => g (ix3 p k c))) (fun k => fzero_le_relu _)

/-- The second scale's pool at (p, q). -/
theorem pool64_apply (g : FVec Ideal S1000x16x64 .f32) (w : FVec Ideal S64x64 .bf16) (bn : Vec Ideal S4x64 .f32) (p : Fin 1000) (q : Fin 64) :
    pool64 g w bn (ix2 p q) = pooled w bn (fun k c => g (ix3 p k c)) q := by
  unfold pool64 pooled
  simp only [maximumf_apply, broadcast_apply, bnRelu_apply]
  rw [nbr64_apply 0 (by decide), nbr64_apply 1 (by decide), nbr64_apply 2 (by decide), nbr64_apply 3 (by decide), nbr64_apply 4 (by decide), nbr64_apply 5 (by decide), nbr64_apply 6 (by decide), nbr64_apply 7 (by decide), nbr64_apply 8 (by decide), nbr64_apply 9 (by decide), nbr64_apply 10 (by decide), nbr64_apply 11 (by decide), nbr64_apply 12 (by decide), nbr64_apply 13 (by decide), nbr64_apply 14 (by decide), nbr64_apply 15 (by decide)]
  exact nest16_eq_fold fzero (fun k => act w bn q (fun c => g (ix3 p k c))) (fun k => fzero_le_relu _)

/-- Entry (p, q) of the body's result is the layer's output row for row p of the loaded tiles. -/
theorem fusedBlock_apply (xl : Vec Ideal S1000x64 .f32) (g1 : Vec Ideal S1000x16x32 .f32) (g2 : Vec Ideal S1000x16x64 .f32)
    (w1 : Vec Ideal S32x64 .f32) (bn1 : Vec Ideal S4x64 .f32) (w2 : Vec Ideal S64x64 .f32) (bn2 : Vec Ideal S4x64 .f32)
    (wo : Vec Ideal S192x64 .f32) (bno : Vec Ideal S4x64 .f32) (p : Fin 1000) (q : Fin 64) :
    fusedBlock xl g1 g2 w1 bn1 w2 bn2 wo bno (ix2 p q)
      = rowOut w1 bn1 w2 bn2 wo bno (fun j => xl (ix2 p j)) (fun k c => g1 (ix3 p k c)) (fun k c => g2 (ix3 p k c)) q := by
  unfold fusedBlock rowOut
  rw [bnRelu_apply, matmul192_apply]
  refine congrArg (fun s => relu (bnAt bno q s)) (Finset.sum_congr rfl fun j _ => ?_)
  rw [truncf_eq, truncf_eq, concat3_apply]
  simp only [pool32_apply, pool64_apply, shapeCast_self, truncf_eq]

end Cert.KernelIdeal.Blk

end
-- ==== Proof.ArraySpec.lean ====
/-
  The layer on the whole arrays: output row `n` is `rowOut` of row `n` of the voxels' own features and of the two
  gathered neighbour arrays (sixteen neighbours per voxel, 32 and 64 features each).
-/
import proofs.«176574_j52956946760189_1_alg».proof.Proof.RowSpec

noncomputable section

namespace Cert.Bignn

open Idealize.ShloMosaic Idealize.ShloMosaic.ValueIdx

/-- The 50000 × 64 result as one function of the six parameter arrays, the voxels' features and the gathered neighbours. -/
def layer (w1 : (⟨2, ![32, 64]⟩ : Shape).Idx → EReal) (bn1 : (⟨2, ![4, 64]⟩ : Shape).Idx → EReal)
    (w2 : (⟨2, ![64, 64]⟩ : Shape).Idx → EReal) (bn2 : (⟨2, ![4, 64]⟩ : Shape).Idx → EReal)
    (wo : (⟨2, ![192, 64]⟩ : Shape).Idx → EReal) (bno : (⟨2, ![4, 64]⟩ : Shape).Idx → EReal)
    (xl : (⟨2, ![50000, 64]⟩ : Shape).Idx → EReal) (g1 : (⟨3, ![50000, 16, 32]⟩ : Shape).Idx → EReal)
    (g2 : (⟨3, ![50000, 16, 64]⟩ : Shape).Idx → EReal) : (⟨2, ![50000, 64]⟩ : Shape).Idx → EReal :=
  fun i => rowOut w1 bn1 w2 bn2 wo bno
    (fun j => xl (ix2 (⟨(i 0).val, (i 0).isLt⟩ : Fin 50000) j))
    (fun k c => g1 (ix3 (⟨(i 0).val, (i 0).isLt⟩ : Fin 50000) k c))
    (fun k c => g2 (ix3 (⟨(i 0).val, (i 0).isLt⟩ : Fin 50000) k c))
    (⟨(i 1).val, (i 1).isLt⟩ : Fin 64)

theorem layer_apply (w1 : (⟨2, ![32, 64]⟩ : Shape).Idx → EReal) (bn1 : (⟨2, ![4, 64]⟩ : Shape).Idx → EReal)
    (w2 : (⟨2, ![64, 64]⟩ : Shape).Idx → EReal) (bn2 : (⟨2, ![4, 64]⟩ : Shape).Idx → EReal)
    (wo : (⟨2, ![192, 64]⟩ : Shape).Idx → EReal) (bno : (⟨2, ![4, 64]⟩ : Shape).Idx → EReal)
    (xl : (⟨2, ![50000, 64]⟩ : Shape).Idx → EReal) (g1 : (⟨3, ![50000, 16, 32]⟩ : Shape).Idx → EReal)
    (g2 : (⟨3, ![50000, 16, 64]⟩ : Shape).Idx → EReal) (n : Fin 50000) (q : Fin 64) :
    layer w1 bn1 w2 bn2 wo bno xl g1 g2 (ix2 n q)
      = rowOut w1 bn1 w2 bn2 wo bno (fun j => xl (ix2 n j)) (fun k c => g1 (ix3 n k c)) (fun k c => g2 (ix3 n k c)) q := rfl

end Cert.Bignn

end
-- ==== Proof.KernelArray.lean ====
/-
  From tiles to the whole array, for the idealized kernel.

  Grid point `t` (of fifty) works on voxels 1000·t … 1000·t + 999: its tiles of the voxels' features and of the two
  gathered arrays are those rows, its six parameter tiles are the whole parameter arrays, and it writes rows
  1000·t … 1000·t + 999 of the result.  Entry (p, q) of what it writes is the layer's row 1000·t + p (`fusedBlock_apply`),
  so each write-back is its block of `Bignn.layer`, the fifty blocks cover all 50000 rows, and the result array ends
  equal to `Bignn.layer` of the arguments and the two gathered arrays.  The gathered arrays are what the host lines
  before the call leave: the operand's rows taken at the index array, negative indices moved up by the row count first.
-/
import proofs.«176574_j52956946760189_1_alg».proof.Proof.Gen.KernelIdeal.Value
import proofs.«176574_j52956946760189_1_alg».proof.Proof.KernelBlockAt
import proofs.«176574_j52956946760189_1_alg».proof.Proof.ArraySpec
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Which block each window holds at a point (decided over the fifty points) -/

theorem idx_row0 : ∀ t : Fin cfg0.N, win0_0.index t (0 : Fin 2) = t.val ∧ win0_0.index t (1 : Fin 2) = 0 :=
  (by decide +kernel : ∀ t : Fin grid0.N, _)
theorem idx_row9 : ∀ t : Fin cfg0.N, win0_9.index t (0 : Fin 2) = t.val ∧ win0_9.index t (1 : Fin 2) = 0 :=
  (by decide +kernel : ∀ t : Fin grid0.N, _)
theorem idx_row1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_row2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_par3 : ∀ t : Fin cfg0.N, win0_3.index t (0 : Fin 2) = 0 ∧ win0_3.index t (1 : Fin 2) = 0 :=
  (by decide +kernel : ∀ t : Fin grid0.N, _)
theorem idx_par4 : ∀ t : Fin cfg0.N, win0_4.index t (0 : Fin 2) = 0 ∧ win0_4.index t (1 : Fin 2) = 0 :=
  (by decide +kernel : ∀ t : Fin grid0.N, _)
theorem idx_par5 : ∀ t : Fin cfg0.N, win0_5.index t (0 : Fin 2) = 0 ∧ win0_5.index t (1 : Fin 2) = 0 :=
  (by decide +kernel : ∀ t : Fin grid0.N, _)
theorem idx_par6 : ∀ t : Fin cfg0.N, win0_6.index t (0 : Fin 2) = 0 ∧ win0_6.index t (1 : Fin 2) = 0 :=
  (by decide +kernel : ∀ t : Fin grid0.N, _)
theorem idx_par7 : ∀ t : Fin cfg0.N, win0_7.index t (0 : Fin 2) = 0 ∧ win0_7.index t (1 : Fin 2) = 0 :=
  (by decide +kernel : ∀ t : Fin grid0.N, _)
theorem idx_par8 : ∀ t : Fin cfg0.N, win0_8.index t (0 : Fin 2) = 0 ∧ win0_8.index t (1 : Fin 2) = 0 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The tiles, at their literal types, as rows of the arrays -/

/-- Window 0's tile at point `t`, at its literal type. -/
abbrev featBlk (c : Dev nD) (t : Fin cfg0.N) : Vec Ideal S1000x64 .f32 := iblk m c 0 t
/-- Window 1's tile at point `t`, at its literal type. -/
abbrev g1Blk (c : Dev nD) (t : Fin cfg0.N) : Vec Ideal S1000x16x32 .f32 := iblk m c 1 t
/-- Window 2's tile at point `t`, at its literal type. -/
abbrev g2Blk (c : Dev nD) (t : Fin cfg0.N) : Vec Ideal S1000x16x64 .f32 := iblk m c 2 t
/-- Window 3's tile at point `t`, at its literal type. -/
abbrev w1Blk (c : Dev nD) (t : Fin cfg0.N) : Vec Ideal S32x64 .f32 := iblk m c 3 t
/-- Window 4's tile at point `t`, at its literal type. -/
abbrev bn1Blk (c : Dev nD) (t : Fin cfg0.N) : Vec Ideal S4x64 .f32 := iblk m c 4 t
/-- Window 5's tile at point `t`, at its literal type. -/
abbrev w2Blk (c : Dev nD) (t : Fin cfg0.N) : Vec Ideal S64x64 .f32 := iblk m c 5 t
/-- Window 6's tile at point `t`, at its literal type. -/
abbrev bn2Blk (c : Dev nD) (t : Fin cfg0.N) : Vec Ideal S4x64 .f32 := iblk m c 6 t
/-- Window 7's tile at point `t`, at its literal type. -/
abbrev woBlk (c : Dev nD) (t : Fin cfg0.N) : Vec Ideal S192x64 .f32 := iblk m c 7 t
/-- Window 8's tile at point `t`, at its literal type. -/
abbrev bnoBlk (c : Dev nD) (t : Fin cfg0.N) : Vec Ideal S4x64 .f32 := iblk m c 8 t

theorem lt_rows (t : Fin cfg0.N) (p : Fin 1000) : 1000 * t.val + p.val < 50000 := by
  have ht : t.val < 50 := lt_of_lt_of_eq t.isLt N_0
  have := p.isLt
  omega

/-- Row `p` of the feature tile at point `t` is row `1000 t + p` of the voxels' features. -/
theorem featBlk_apply (c : Dev nD) (t : Fin cfg0.N) (p : Fin 1000) (j : Fin 64) :
    featBlk m c t (ix2 p j) = (V m c main_arg2 : S50000x64.Idx → EReal) (ix2 (⟨1000 * t.val + p.val, lt_rows t p⟩ : Fin 50000) j) := by
  show iblk m c 0 t (ix2 p j) = _
  unfold iblk
  rw [View.read_apply]
  show V m c main_arg2 _ = V m c main_arg2 _
  congr 1
  funext a
  apply Fin.ext
  have h := idx_row0 t
  match a with
  | ⟨0, _⟩ => show win0_0.index t (0 : Fin 2) * 1000 + 1 * p.val = 1000 * t.val + p.val; rw [h.1]; omega
  | ⟨1, _⟩ => show win0_0.index t (1 : Fin 2) * 64 + 1 * j.val = j.val; rw [h.2]; omega

/-- Row `p` of the first gathered tile at point `t` is row `1000 t + p` of the first gathered array. -/
theorem g1Blk_apply (c : Dev nD) (t : Fin cfg0.N) (p : Fin 1000) (k : Fin 16) (e : Fin 32) :
    g1Blk m c t (ix3 p k e) = (V m c main_v6 : S50000x16x32.Idx → EReal) (ix3 (⟨1000 * t.val + p.val, lt_rows t p⟩ : Fin 50000) k e) := by
  show iblk m c 1 t (ix3 p k e) = _
  unfold iblk
  rw [View.read_apply]
  show V m c main_v6 _ = V m c main_v6 _
  congr 1
  funext a
  apply Fin.ext
  have h := idx_row1 t
  match a with
  | ⟨0, _⟩ => show win0_1.index t (0 : Fin 3) * 1000 + 1 * p.val = 1000 * t.val + p.val; rw [h.1]; omega
  | ⟨1, _⟩ => show win0_1.index t (1 : Fin 3) * 16 + 1 * k.val = k.val; rw [h.2.1]; omega
  | ⟨2, _⟩ => show win0_1.index t (2 : Fin 3) * 32 + 1 * e.val = e.val; rw [h.2.2]; omega

/-- Row `p` of the second gathered tile at point `t` is row `1000 t + p` of the second gathered array. -/
theorem g2Blk_apply (c : Dev nD) (t : Fin cfg0.N) (p : Fin 1000) (k : Fin 16) (e : Fin 64) :
    g2Blk m c t (ix3 p k e) = (V m c main_v13 : S50000x16x64.Idx → EReal) (ix3 (⟨1000 * t.val + p.val, lt_rows t p⟩ : Fin 50000) k e) := by
  show iblk m c 2 t (ix3 p k e) = _
  unfold iblk
  rw [View.read_apply]
  show V m c main_v13 _ = V m c main_v13 _
  congr 1
  funext a
  apply Fin.ext
  have h := idx_row2 t
  match a with
  | ⟨0, _⟩ => show win0_2.index t (0 : Fin 3) * 1000 + 1 * p.val = 1000 * t.val + p.val; rw [h.1]; omega
  | ⟨1, _⟩ => show win0_2.index t (1 : Fin 3) * 16 + 1 * k.val = k.val; rw [h.2.1]; omega
  | ⟨2, _⟩ => show win0_2.index t (2 : Fin 3) * 64 + 1 * e.val = e.val; rw [h.2.2]; omega

/-- Parameter window 3 stages its whole array at every point. -/
theorem w1Blk_eq (c : Dev nD) (t : Fin cfg0.N) : w1Blk m c t = (V m c main_arg3 : S32x64.Idx → EReal) := by
  funext y
  show iblk m c 3 t y = _
  unfold iblk
  rw [View.read_apply]
  show V m c main_arg3 _ = V m c main_arg3 y
  congr 1
  funext a
  apply Fin.ext
  have h := idx_par3 t
  match a with
  | ⟨0, _⟩ => show win0_3.index t (0 : Fin 2) * 32 + 1 * (y 0).val = (y 0).val; rw [h.1]; omega
  | ⟨1, _⟩ => show win0_3.index t (1 : Fin 2) * 64 + 1 * (y 1).val = (y 1).val; rw [h.2]; omega

/-- Parameter window 4 stages its whole array at every point. -/
theorem bn1Blk_eq (c : Dev nD) (t : Fin cfg0.N) : bn1Blk m c t = (V m c main_arg4 : S4x64.Idx → EReal) := by
  funext y
  show iblk m c 4 t y = _
  unfold iblk
  rw [View.read_apply]
  show V m c main_arg4 _ = V m c main_arg4 y
  congr 1
  funext a
  apply Fin.ext
  have h := idx_par4 t
  match a with
  | ⟨0, _⟩ => show win0_4.index t (0 : Fin 2) * 4 + 1 * (y 0).val = (y 0).val; rw [h.1]; omega
  | ⟨1, _⟩ => show win0_4.index t (1 : Fin 2) * 64 + 1 * (y 1).val = (y 1).val; rw [h.2]; omega

/-- Parameter window 5 stages its whole array at every point. -/
theorem w2Blk_eq (c : Dev nD) (t : Fin cfg0.N) : w2Blk m c t = (V m c main_arg5 : S64x64.Idx → EReal) := by
  funext y
  show iblk m c 5 t y = _
  unfold iblk
  rw [View.read_apply]
  show V m c main_arg5 _ = V m c main_arg5 y
  congr 1
  funext a
  apply Fin.ext
  have h := idx_par5 t
  match a with
  | ⟨0, _⟩ => show win0_5.index t (0 : Fin 2) * 64 + 1 * (y 0).val = (y 0).val; rw [h.1]; omega
  | ⟨1, _⟩ => show win0_5.index t (1 : Fin 2) * 64 + 1 * (y 1).val = (y 1).val; rw [h.2]; omega

/-- Parameter window 6 stages its whole array at every point. -/
theorem bn2Blk_eq (c : Dev nD) (t : Fin cfg0.N) : bn2Blk m c t = (V m c main_arg6 : S4x64.Idx → EReal) := by
  funext y
  show iblk m c 6 t y = _
  unfold iblk
  rw [View.read_apply]
  show V m c main_arg6 _ = V m c main_arg6 y
  congr 1
  funext a
  apply Fin.ext
  have h := idx_par6 t
  match a with
  | ⟨0, _⟩ => show win0_6.index t (0 : Fin 2) * 4 + 1 * (y 0).val = (y 0).val; rw [h.1]; omega
  | ⟨1, _⟩ => show win0_6.index t (1 : Fin 2) * 64 + 1 * (y 1).val = (y 1).val; rw [h.2]; omega

/-- Parameter window 7 stages its whole array at every point. -/
theorem woBlk_eq (c : Dev nD) (t : Fin cfg0.N) : woBlk m c t = (V m c main_arg7 : S192x64.Idx → EReal) := by
  funext y
  show iblk m c 7 t y = _
  unfold iblk
  rw [View.read_apply]
  show V m c main_arg7 _ = V m c main_arg7 y
  congr 1
  funext a
  apply Fin.ext
  have h := idx_par7 t
  match a with
  | ⟨0, _⟩ => show win0_7.index t (0 : Fin 2) * 192 + 1 * (y 0).val = (y 0).val; rw [h.1]; omega
  | ⟨1, _⟩ => show win0_7.index t (1 : Fin 2) * 64 + 1 * (y 1).val = (y 1).val; rw [h.2]; omega

/-- Parameter window 8 stages its whole array at every point. -/
theorem bnoBlk_eq (c : Dev nD) (t : Fin cfg0.N) : bnoBlk m c t = (V m c main_arg8 : S4x64.Idx → EReal) := by
  funext y
  show iblk m c 8 t y = _
  unfold iblk
  rw [View.read_apply]
  show V m c main_arg8 _ = V m c main_arg8 y
  congr 1
  funext a
  apply Fin.ext
  have h := idx_par8 t
  match a with
  | ⟨0, _⟩ => show win0_8.index t (0 : Fin 2) * 4 + 1 * (y 0).val = (y 0).val; rw [h.1]; omega
  | ⟨1, _⟩ => show win0_8.index t (1 : Fin 2) * 64 + 1 * (y 1).val = (y 1).val; rw [h.2]; omega

/-! ## What a point writes back, the cover, the final array -/

/-- The layer of the arrays as the region finds them. -/
abbrev layerV (c : Dev nD) : S50000x64.Idx → EReal :=
  Bignn.layer (V m c main_arg3) (V m c main_arg4) (V m c main_arg5) (V m c main_arg6) (V m c main_arg7) (V m c main_arg8)
    (V m c main_arg2) (V m c main_v6) (V m c main_v13)

/-- What point `t` writes back is its block of the layer. -/
theorem flushed_eq (c : Dev nD) (t : Fin cfg0.N) :
    (dats m 0 c).flushed 9 t = ((cfg0.win 9).blk t).view.read (Elt Ideal) (layerV m c) := by
  rw [Value.flushed9, Blk.out_eq]
  rw [View.canon_unit_zero hz2]
  simp only [View.ld_unit_zero (S := S1000x64) hz2, View.ld_unit_zero (S := S1000x16x32) hz3, View.ld_unit_zero (S := S1000x16x64) hz3,
    View.ld_unit_zero (S := S32x64) hz2, View.ld_unit_zero (S := S4x64) hz2, View.ld_unit_zero (S := S64x64) hz2, View.ld_unit_zero (S := S192x64) hz2]
  funext j
  obtain ⟨p, q, rfl⟩ : ∃ (p : Fin 1000) (q : Fin 64), j = ix2 p q := ⟨j 0, j 1, eq_ix2 j⟩
  show Blk.fusedBlock (featBlk m c t) (g1Blk m c t) (g2Blk m c t) (w1Blk m c t) (bn1Blk m c t) (w2Blk m c t) (bn2Blk m c t) (woBlk m c t) (bnoBlk m c t) (ix2 p q)
    = layerV m c (((cfg0.win 9).blk t).view.emb (ix2 p q))
  refine (Blk.fusedBlock_apply (featBlk m c t) (g1Blk m c t) (g2Blk m c t) (w1Blk m c t) (bn1Blk m c t) (w2Blk m c t) (bn2Blk m c t) (woBlk m c t) (bnoBlk m c t) p q).trans ?_
  have hemb : ((cfg0.win 9).blk t).view.emb (ix2 p q) = (ix2 (⟨1000 * t.val + p.val, lt_rows t p⟩ : Fin 50000) q : S50000x64.Idx) := by
    funext a
    apply Fin.ext
    have h := idx_row9 t
    match a with
    | ⟨0, _⟩ => show win0_9.index t (0 : Fin 2) * 1000 + 1 * p.val = 1000 * t.val + p.val; rw [h.1]; omega
    | ⟨1, _⟩ => show win0_9.index t (1 : Fin 2) * 64 + 1 * q.val = q.val; rw [h.2]; omega
  rw [hemb]
  show _ = Bignn.layer (V m c main_arg3) (V m c main_arg4) (V m c main_arg5) (V m c main_arg6) (V m c main_arg7) (V m c main_arg8)
    (V m c main_arg2) (V m c main_v6) (V m c main_v13) (ix2 (⟨1000 * t.val + p.val, lt_rows t p⟩ : Fin 50000) q)
  rw [Bignn.layer_apply, w1Blk_eq, bn1Blk_eq, w2Blk_eq, bn2Blk_eq, woBlk_eq, bnoBlk_eq]
  have e0 : (fun j => featBlk m c t (ix2 p j)) = fun j => (V m c main_arg2 : S50000x64.Idx → EReal) (ix2 (⟨1000 * t.val + p.val, lt_rows t p⟩ : Fin 50000) j) :=
    funext fun j => featBlk_apply m c t p j
  have e1 : (fun k e => g1Blk m c t (ix3 p k e)) = fun k e => (V m c main_v6 : S50000x16x32.Idx → EReal) (ix3 (⟨1000 * t.val + p.val, lt_rows t p⟩ : Fin 50000) k e) :=
    funext fun k => funext fun e => g1Blk_apply m c t p k e
  have e2 : (fun k e => g2Blk m c t (ix3 p k e)) = fun k e => (V m c main_v13 : S50000x16x64.Idx → EReal) (ix3 (⟨1000 * t.val + p.val, lt_rows t p⟩ : Fin 50000) k e) :=
    funext fun k => funext fun e => g2Blk_apply m c t p k e
  rw [e0, e1, e2]

/-- An index of the result is in point `t`'s block iff each coordinate is in the block's range on its axis. -/
theorem mem_blk (t : Fin cfg0.N) (i : S50000x64.Idx) :
    i ∈ ((cfg0.win 9).blk t).view.set ↔ ∀ a : Fin 2, win0_9.index t a * S1000x64.size a ≤ (i a).val ∧ (i a).val < win0_9.index t a * S1000x64.size a + S1000x64.size a := by
  show i ∈ ((View.whole main_v14).slice (win0_9.rect t)).set ↔ _
  rw [View.set_slice_whole, Rect.mem_set_unit]
  exact Iff.rfl

/-- Every row of the result is in the block of the point that owns its thousand. -/
theorem cover (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  have hN : (i 0).val / 1000 < cfg0.N := by rw [show cfg0.N = 50 from N_0]; omega
  refine ⟨⟨(i 0).val / 1000, hN⟩, flush0_9 _, ?_⟩
  rw [mem_blk]
  have h := idx_row9 ⟨(i 0).val / 1000, hN⟩
  intro a
  match a with
  | ⟨0, _⟩ =>
    show win0_9.index ⟨(i 0).val / 1000, hN⟩ (0 : Fin 2) * 1000 ≤ (i 0).val ∧ (i 0).val < win0_9.index ⟨(i 0).val / 1000, hN⟩ (0 : Fin 2) * 1000 + 1000
    rw [h.1]
    show (i 0).val / 1000 * 1000 ≤ (i 0).val ∧ (i 0).val < (i 0).val / 1000 * 1000 + 1000
    omega
  | ⟨1, _⟩ =>
    show win0_9.index ⟨(i 0).val / 1000, hN⟩ (1 : Fin 2) * 64 ≤ (i 1).val ∧ (i 1).val < win0_9.index ⟨(i 0).val / 1000, hN⟩ (1 : Fin 2) * 64 + 64
    rw [h.2]
    omega

/-- The result array after the run is the layer of the arrays as the region finds them. -/
theorem final (c : Dev nD) : (dats m 0 c).arrAt 9 cfg0.N = layerV m c :=
  (dats m 0 c).arrAt_eq_of_cover 9 (layerV m c) (fun t _ => flushed_eq m c t) cover

/-! ## The gathered arrays, from the host lines before the call -/

/-- Rows of a `rows × C` operand taken at a 50000 × 16 index array, a negative index moved up by `rows` first (what
    `x[idx]` lowers to). -/
def gathered1 (x0 : S200000x32.Idx → EReal) (x9 : IVec S50000x16 32) : S50000x16x32.Idx → EReal :=
  Host.gather gather_S200000x32_S50000x16x1_S50000x16x32_2_0_n_n_0_2_132 x0
    (broadcastInDim S50000x16x1 ![0, 1] bcast_S50000x16_S50000x16x1_0_1
      (select (cmpi .slt x9 (broadcastInDim S50000x16 ![] bcast_S_S50000x16 (constantI S_ 32 0#32)))
        (addi x9 (broadcastInDim S50000x16 ![] bcast_S_S50000x16 (constantI S_ 32 200000#32))) x9))

def gathered2 (x1 : S100000x64.Idx → EReal) (x10 : IVec S50000x16 32) : S50000x16x64.Idx → EReal :=
  Host.gather gather_S100000x64_S50000x16x1_S50000x16x64_2_0_n_n_0_2_164 x1
    (broadcastInDim S50000x16x1 ![0, 1] bcast_S50000x16_S50000x16x1_0_1
      (select (cmpi .slt x10 (broadcastInDim S50000x16 ![] bcast_S_S50000x16 (constantI S_ 32 0#32)))
        (addi x10 (broadcastInDim S50000x16 ![] bcast_S_S50000x16 (constantI S_ 32 100000#32))) x10))

theorem V_g1 (c : Dev nD) : (V m c main_v6 : S50000x16x32.Idx → EReal)
    = gathered1 (m ((c : Thread nD τ).loc main_arg0)) (m ((c : Thread nD τ).loc main_arg9)) := by
  dsimp only [Gen.V, Gen.hostOps0]
  after_results
  rfl

theorem V_g2 (c : Dev nD) : (V m c main_v13 : S50000x16x64.Idx → EReal)
    = gathered2 (m ((c : Thread nD τ).loc main_arg1)) (m ((c : Thread nD τ).loc main_arg10)) := by
  dsimp only [Gen.V, Gen.hostOps0]
  after_results
  rfl

/-- The layer of the launch contents. -/
abbrev result (c : Dev nD) : S50000x64.Idx → EReal :=
  Bignn.layer (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg2))
    (gathered1 (m ((c : Thread nD τ).loc main_arg0)) (m ((c : Thread nD τ).loc main_arg9)))
    (gathered2 (m ((c : Thread nD τ).loc main_arg1)) (m ((c : Thread nD τ).loc main_arg10)))

theorem layerV_eq (c : Dev nD) : layerV m c = result m c := by
  unfold layerV result
  rw [V_g1, V_g2, V_main_arg2, V_main_arg3, V_main_arg4, V_main_arg5, V_main_arg6, V_main_arg7, V_main_arg8]

/-- The idealized kernel's run: the result array ends at the layer of the launch contents, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (layerV_eq m c)), (h c).2⟩) (Value.run_blocks m ρ)

end Cert.KernelIdeal.Arr

end
-- ==== Proof.LibNary3.lean ====
/-
  A host operation over a LITERAL family of three references (a three-operand `stablehlo.concatenate`), read at its
  result buffer: the function applied to the three operands' contents, each AT ITS OWN reference, so that what the
  earlier operations left in each operand can go on being rewritten.  The library states this for four references
  (`nary4_result`); the generic form `nary_result` leaves the operands under a binder, `fun k => F ↑(![x, a, b] k)`,
  where no further result lemma applies.  The family of the three contents is given a name, `fam3`, whose entries at the
  literal positions 0, 1, 2 are the three contents by lemmas whose two sides have the contents' own types: a rewriting
  pass that compares types without unfolding `![x, a, b] k` can use them and then goes on inside each operand.
  General: any references, any function, any valuation.
-/
import Idealize.ShloMosaic.Lib.StableHlo.Run

noncomputable section

namespace Idealize.ShloMosaic.StableHlo

variable {τ : Topo} {sig : RefSig} {Val : EltTy → Type}
variable {x a b y : Ref sig .tc}

/-- Three contents as the family over `Fin 3` that an operation on `![x, a, b]` takes. -/
def fam3 (X : x.ty.Contents Val) (A : a.ty.Contents Val) (B : b.ty.Contents Val) :
    (k : Fin 3) → ((![x, a, b] : Fin 3 → Ref sig .tc) k).ty.Contents Val :=
  Fin.cons X (Fin.cons A (Fin.cons B (fun i => i.elim0)))

theorem fam3_zero (X : x.ty.Contents Val) (A : a.ty.Contents Val) (B : b.ty.Contents Val) : fam3 X A B 0 = X := rfl
theorem fam3_one (X : x.ty.Contents Val) (A : a.ty.Contents Val) (B : b.ty.Contents Val) : fam3 X A B 1 = A := rfl
theorem fam3_two (X : x.ty.Contents Val) (A : a.ty.Contents Val) (B : b.ty.Contents Val) : fam3 X A B 2 = B := rfl

/-- A function of such a family applied to three contents.  Kept as a definition: a rewriting pass then works on the
    three contents as plain arguments, before they are put in the function's body. -/
def apply3 (f : ((k : Fin 3) → ((![x, a, b] : Fin 3 → Ref sig .tc) k).ty.Contents Val) → y.ty.Contents Val)
    (X : x.ty.Contents Val) (A : a.ty.Contents Val) (B : b.ty.Contents Val) : y.ty.Contents Val :=
  f (fam3 X A B)

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same with the result reference un-indexed, the form one `simp` pass over a line of operations uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result f hxs hy F

end Idealize.ShloMosaic.StableHlo

end
-- ==== Proof.RefLayer.lean ====
/-
  The reference's arithmetic, grouped as the layer it is, and read at an index on the extended reals.

  The reference works on all 50000 voxels at once: every gathered neighbour row through the weights (one `dot_general`
  with the channel contracted), batch norm with the table's rows broadcast over voxels and neighbours, relu, the maximum
  over the neighbour axis started at −∞; then own features and the two pooled arrays joined, the output weights, batch
  norm, relu.  `hostLayer` is that composition, operation for operation as the program's run states it; at index (n, q)
  it is `Bignn.rowOut` of row n (`hostLayer_apply`), so the whole array is `Bignn.layer` (`hostLayer_eq`).
-/
import proofs.«176574_j52956946760189_1_alg».proof.Proof.Gen.ReferenceIdeal
import proofs.«176574_j52956946760189_1_alg».proof.Proof.ArraySpec
import proofs.«176574_j52956946760189_1_alg».proof.Proof.LayoutAt
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.Lyr

open Cert.ReferenceIdeal Cert.ReferenceIdeal.Gen Idealize.ShloMosaic Idealize.ShloMosaic.ValueIdx Idealize.SL.Sem
open Cert.Bignn

section AnyInstance

variable {F : FTy → Type} [FloatOps F]

/-- Row `o` of a parameter table as a 64-vector. -/
def hrow (o : ℕ) (hs : S4x64.Slices ![o, 0] S1x64) (bn : FVec F S4x64 .f32) : FVec F S64 .f32 :=
  shapeCast _ (extractStridedSlice S1x64 ![o, 0] bn hs) shapeCasts_S1x64_S64

/-- A 64-vector broadcast over voxels and neighbours. -/
def up3 (v : FVec F S64 .f32) : FVec F S50000x16x64 .f32 :=
  broadcastInDim S50000x16x64 ![0, 1, 2] bcast_S1x1x64_S50000x16x64_0_1_2 (broadcastInDim S1x1x64 ![2] bcast_S64_S1x1x64_2 v)

/-- A 64-vector broadcast over voxels. -/
def up2 (v : FVec F S64 .f32) : FVec F S50000x64 .f32 :=
  broadcastInDim S50000x64 ![0, 1] bcast_S1x64_S50000x64_0_1 (broadcastInDim S1x64 ![1] bcast_S64_S1x64_1 v)

/-- `rsqrt (σ² + ε)`, per channel. -/
def invStd (bn : FVec F S4x64 .f32) : FVec F S64 .f32 :=
  Host.rsqrt (addf (hrow 3 slices_S4x64_S1x64_3_0 bn) (broadcastInDim S64 ![] bcast_S_S64 (constant S_ .f32 0x3A83126F#32)))

/-- Batch norm then relu over voxels × neighbours × channels. -/
def bnRelu3 (bn : FVec F S4x64 .f32) (h : FVec F S50000x16x64 .f32) : FVec F S50000x16x64 .f32 :=
  maximumf (addf (mulf (mulf (subf h (up3 (hrow 2 slices_S4x64_S1x64_2_0 bn))) (up3 (invStd bn))) (up3 (hrow 0 slices_S4x64_S1x64_0_0 bn)))
    (up3 (hrow 1 slices_S4x64_S1x64_1_0 bn))) (broadcastInDim S50000x16x64 ![] bcast_S_S50000x16x64 (constant S_ .f32 0x00000000#32))

/-- Batch norm then relu over voxels × channels. -/
def bnRelu2 (bn : FVec F S4x64 .f32) (h : FVec F S50000x64 .f32) : FVec F S50000x64 .f32 :=
  maximumf (addf (mulf (mulf (subf h (up2 (hrow 2 slices_S4x64_S1x64_2_0 bn))) (up2 (invStd bn))) (up2 (hrow 0 slices_S4x64_S1x64_0_0 bn)))
    (up2 (hrow 1 slices_S4x64_S1x64_1_0 bn))) (broadcastInDim S50000x64 ![] bcast_S_S50000x64 (constant S_ .f32 0x00000000#32))

/-- The first scale's grouper: weights, batch norm, relu, maximum over the neighbours from −∞. -/
def pool1 (g : FVec F S50000x16x32 .f32) (w : FVec F S32x64 .f32) (bn : FVec F S4x64 .f32) : FVec F S50000x64 .f32 :=
  Host.reduce FloatOps.maximumf (bnRelu3 bn (Host.dotGeneral dot_S50000x16x32_S32x64_S50000x16x64_2_0_01_1_n_n none g w))
    (constant S_ .f32 0xFF800000#32) reducesTo_S50000x16x64_S50000x64_d1 h_S_

/-- The second scale's grouper. -/
def pool2 (g : FVec F S50000x16x64 .f32) (w : FVec F S64x64 .f32) (bn : FVec F S4x64 .f32) : FVec F S50000x64 .f32 :=
  Host.reduce FloatOps.maximumf (bnRelu3 bn (Host.dotGeneral dot_S50000x16x64_S64x64_S50000x16x64_2_0_01_1_n_n none g w))
    (constant S_ .f32 0xFF800000#32) reducesTo_S50000x16x64_S50000x64_d1 h_S_

/-- Rows of the operand taken at the index array, a negative index moved up by the row count first. -/
def gathered1 (x0 : FVec F S200000x32 .f32) (x9 : IVec S50000x16 32) : FVec F S50000x16x32 .f32 :=
  Host.gather gather_S200000x32_S50000x16x1_S50000x16x32_2_0_n_n_0_2_132 x0
    (broadcastInDim S50000x16x1 ![0, 1] bcast_S50000x16_S50000x16x1_0_1
      (select (cmpi .slt x9 (broadcastInDim S50000x16 ![] bcast_S_S50000x16 (constantI S_ 32 0#32)))
        (addi x9 (broadcastInDim S50000x16 ![] bcast_S_S50000x16 (constantI S_ 32 200000#32))) x9))

def gathered2 (x1 : FVec F S100000x64 .f32) (x10 : IVec S50000x16 32) : FVec F S50000x16x64 .f32 :=
  Host.gather gather_S100000x64_S50000x16x1_S50000x16x64_2_0_n_n_0_2_164 x1
    (broadcastInDim S50000x16x1 ![0, 1] bcast_S50000x16_S50000x16x1_0_1
      (select (cmpi .slt x10 (broadcastInDim S50000x16 ![] bcast_S_S50000x16 (constantI S_ 32 0#32)))
        (addi x10 (broadcastInDim S50000x16 ![] bcast_S_S50000x16 (constantI S_ 32 100000#32))) x10))

/-- The whole reference on the voxels' features, the two gathered arrays and the six parameter arrays. -/
def hostLayer (x2 : FVec F S50000x64 .f32) (g1 : FVec F S50000x16x32 .f32) (g2 : FVec F S50000x16x64 .f32) (x3 : FVec F S32x64 .f32)
    (x4 : FVec F S4x64 .f32) (x5 : FVec F S64x64 .f32) (x6 : FVec F S4x64 .f32) (x7 : FVec F S192x64 .f32) (x8 : FVec F S4x64 .f32) :
    FVec F S50000x64 .f32 :=
  bnRelu2 x8 (Host.dotGeneral dot_S50000x192_S192x64_S50000x64_1_0_0_1_n_n none
    (concatenate S50000x192 1 [⟨S50000x64, x2⟩, ⟨S50000x64, pool1 g1 x3 x4⟩, ⟨S50000x64, pool2 g2 x5 x6⟩]
      concatenates_S50000x64_S50000x64_S50000x64_S50000x192_d1) x7)

end AnyInstance

/-! ## At the ideal instance, index by index -/

theorem lhsA_0 (i : S50000x16x64.Idx) (q : dot_S50000x16x32_S32x64_S50000x16x64_2_0_01_1_n_n.contr.Idx) :
    (dot_S50000x16x32_S32x64_S50000x16x64_2_0_01_1_n_n.lhsIdx i q 0).val = (i 0).val := by
  unfold DotDims.lhsIdx
  rw [dif_neg (show ¬(0 : Fin S50000x16x32.rank) ∈ dot_S50000x16x32_S32x64_S50000x16x64_2_0_01_1_n_n.lhsBatch by decide), dif_pos (show (0 : Fin S50000x16x32.rank) ∈ dot_S50000x16x32_S32x64_S50000x16x64_2_0_01_1_n_n.lhsNonContracting by decide)]
  rfl
theorem lhsA_1 (i : S50000x16x64.Idx) (q : dot_S50000x16x32_S32x64_S50000x16x64_2_0_01_1_n_n.contr.Idx) :
    (dot_S50000x16x32_S32x64_S50000x16x64_2_0_01_1_n_n.lhsIdx i q 1).val = (i 1).val := by
  unfold DotDims.lhsIdx
  rw [dif_neg (show ¬(1 : Fin S50000x16x32.rank) ∈ dot_S50000x16x32_S32x64_S50000x16x64_2_0_01_1_n_n.lhsBatch by decide), dif_pos (show (1 : Fin S50000x16x32.rank) ∈ dot_S50000x16x32_S32x64_S50000x16x64_2_0_01_1_n_n.lhsNonContracting by decide)]
  rfl
theorem lhsA_2 (i : S50000x16x64.Idx) (q : dot_S50000x16x32_S32x64_S50000x16x64_2_0_01_1_n_n.contr.Idx) :
    (dot_S50000x16x32_S32x64_S50000x16x64_2_0_01_1_n_n.lhsIdx i q 2).val = (q ⟨0, by decide⟩).val :=
  dot_S50000x16x32_S32x64_S50000x16x64_2_0_01_1_n_n.lhsIdx_val_of_single rfl i q
theorem rhsA_0 (i : S50000x16x64.Idx) (q : dot_S50000x16x32_S32x64_S50000x16x64_2_0_01_1_n_n.contr.Idx) :
    (dot_S50000x16x32_S32x64_S50000x16x64_2_0_01_1_n_n.rhsIdx i q 0).val = (q ⟨0, by decide⟩).val :=
  dot_S50000x16x32_S32x64_S50000x16x64_2_0_01_1_n_n.rhsIdx_val_of_single rfl i q
theorem rhsA_1 (i : S50000x16x64.Idx) (q : dot_S50000x16x32_S32x64_S50000x16x64_2_0_01_1_n_n.contr.Idx) :
    (dot_S50000x16x32_S32x64_S50000x16x64_2_0_01_1_n_n.rhsIdx i q 1).val = (i 2).val := by
  unfold DotDims.rhsIdx
  rw [dif_neg (show ¬(1 : Fin S32x64.rank) ∈ dot_S50000x16x32_S32x64_S50000x16x64_2_0_01_1_n_n.rhsBatch by decide), dif_pos (show (1 : Fin S32x64.rank) ∈ dot_S50000x16x32_S32x64_S50000x16x64_2_0_01_1_n_n.rhsNonContracting by decide)]
  rfl

/-- Every neighbour row through the 32-channel weights, at (n, k, q): the sum over the 32 channels. -/
theorem dotA_apply (l : FVec Ideal S50000x16x32 .f32) (r : FVec Ideal S32x64 .f32) (n : Fin 50000) (k : Fin 16) (q : Fin 64) :
    Host.dotGeneral dot_S50000x16x32_S32x64_S50000x16x64_2_0_01_1_n_n none l r (ix3 n k q) = ∑ c : Fin 32, l (ix3 n k c) * r (ix2 c q) := by
  simp only [Host.dotGeneral]
  rw [Ideal.dotGeneral_apply, ← Equiv.sum_comp (ValueIdx.contrEquiv1 dot_S50000x16x32_S32x64_S50000x16x64_2_0_01_1_n_n 32 rfl rfl).symm]
  refine Finset.sum_congr rfl fun c _ => ?_
  have hk := ValueIdx.contrEquiv1_symm_val dot_S50000x16x32_S32x64_S50000x16x64_2_0_01_1_n_n 32 rfl rfl c
  have el : dot_S50000x16x32_S32x64_S50000x16x64_2_0_01_1_n_n.lhsIdx (ix3 n k q) ((ValueIdx.contrEquiv1 dot_S50000x16x32_S32x64_S50000x16x64_2_0_01_1_n_n 32 rfl rfl).symm c) = ix3 n k c := funext fun a => Fin.ext (by
    match a with
    | ⟨0, _⟩ => exact lhsA_0 _ _
    | ⟨1, _⟩ => exact lhsA_1 _ _
    | ⟨2, _⟩ => exact (lhsA_2 _ _).trans hk)
  have er : dot_S50000x16x32_S32x64_S50000x16x64_2_0_01_1_n_n.rhsIdx (ix3 n k q) ((ValueIdx.contrEquiv1 dot_S50000x16x32_S32x64_S50000x16x64_2_0_01_1_n_n 32 rfl rfl).symm c) = ix2 c q := funext fun a => Fin.ext (by
    match a with
    | ⟨0, _⟩ => exact (rhsA_0 _ _).trans hk
    | ⟨1, _⟩ => exact rhsA_1 _ _)
  rw [el, er]

theorem lhsB_0 (i : S50000x16x64.Idx) (q : dot_S50000x16x64_S64x64_S50000x16x64_2_0_01_1_n_n.contr.Idx) :
    (dot_S50000x16x64_S64x64_S50000x16x64_2_0_01_1_n_n.lhsIdx i q 0).val = (i 0).val := by
  unfold DotDims.lhsIdx
  rw [dif_neg (show ¬(0 : Fin S50000x16x64.rank) ∈ dot_S50000x16x64_S64x64_S50000x16x64_2_0_01_1_n_n.lhsBatch by decide), dif_pos (show (0 : Fin S50000x16x64.rank) ∈ dot_S50000x16x64_S64x64_S50000x16x64_2_0_01_1_n_n.lhsNonContracting by decide)]
  rfl
theorem lhsB_1 (i : S50000x16x64.Idx) (q : dot_S50000x16x64_S64x64_S50000x16x64_2_0_01_1_n_n.contr.Idx) :
    (dot_S50000x16x64_S64x64_S50000x16x64_2_0_01_1_n_n.lhsIdx i q 1).val = (i 1).val := by
  unfold DotDims.lhsIdx
  rw [dif_neg (show ¬(1 : Fin S50000x16x64.rank) ∈ dot_S50000x16x64_S64x64_S50000x16x64_2_0_01_1_n_n.lhsBatch by decide), dif_pos (show (1 : Fin S50000x16x64.rank) ∈ dot_S50000x16x64_S64x64_S50000x16x64_2_0_01_1_n_n.lhsNonContracting by decide)]
  rfl
theorem lhsB_2 (i : S50000x16x64.Idx) (q : dot_S50000x16x64_S64x64_S50000x16x64_2_0_01_1_n_n.contr.Idx) :
    (dot_S50000x16x64_S64x64_S50000x16x64_2_0_01_1_n_n.lhsIdx i q 2).val = (q ⟨0, by decide⟩).val :=
  dot_S50000x16x64_S64x64_S50000x16x64_2_0_01_1_n_n.lhsIdx_val_of_single rfl i q
theorem rhsB_0 (i : S50000x16x64.Idx) (q : dot_S50000x16x64_S64x64_S50000x16x64_2_0_01_1_n_n.contr.Idx) :
    (dot_S50000x16x64_S64x64_S50000x16x64_2_0_01_1_n_n.rhsIdx i q 0).val = (q ⟨0, by decide⟩).val :=
  dot_S50000x16x64_S64x64_S50000x16x64_2_0_01_1_n_n.rhsIdx_val_of_single rfl i q
theorem rhsB_1 (i : S50000x16x64.Idx) (q : dot_S50000x16x64_S64x64_S50000x16x64_2_0_01_1_n_n.contr.Idx) :
    (dot_S50000x16x64_S64x64_S50000x16x64_2_0_01_1_n_n.rhsIdx i q 1).val = (i 2).val := by
  unfold DotDims.rhsIdx
  rw [dif_neg (show ¬(1 : Fin S64x64.rank) ∈ dot_S50000x16x64_S64x64_S50000x16x64_2_0_01_1_n_n.rhsBatch by decide), dif_pos (show (1 : Fin S64x64.rank) ∈ dot_S50000x16x64_S64x64_S50000x16x64_2_0_01_1_n_n.rhsNonContracting by decide)]
  rfl

/-- Every neighbour row through the 64-channel weights, at (n, k, q): the sum over the 64 channels. -/
theorem dotB_apply (l : FVec Ideal S50000x16x64 .f32) (r : FVec Ideal S64x64 .f32) (n : Fin 50000) (k : Fin 16) (q : Fin 64) :
    Host.dotGeneral dot_S50000x16x64_S64x64_S50000x16x64_2_0_01_1_n_n none l r (ix3 n k q) = ∑ c : Fin 64, l (ix3 n k c) * r (ix2 c q) := by
  simp only [Host.dotGeneral]
  rw [Ideal.dotGeneral_apply, ← Equiv.sum_comp (ValueIdx.contrEquiv1 dot_S50000x16x64_S64x64_S50000x16x64_2_0_01_1_n_n 64 rfl rfl).symm]
  refine Finset.sum_congr rfl fun c _ => ?_
  have hk := ValueIdx.contrEquiv1_symm_val dot_S50000x16x64_S64x64_S50000x16x64_2_0_01_1_n_n 64 rfl rfl c
  have el : dot_S50000x16x64_S64x64_S50000x16x64_2_0_01_1_n_n.lhsIdx (ix3 n k q) ((ValueIdx.contrEquiv1 dot_S50000x16x64_S64x64_S50000x16x64_2_0_01_1_n_n 64 rfl rfl).symm c) = ix3 n k c := funext fun a => Fin.ext (by
    match a with
    | ⟨0, _⟩ => exact lhsB_0 _ _
    | ⟨1, _⟩ => exact lhsB_1 _ _
    | ⟨2, _⟩ => exact (lhsB_2 _ _).trans hk)
  have er : dot_S50000x16x64_S64x64_S50000x16x64_2_0_01_1_n_n.rhsIdx (ix3 n k q) ((ValueIdx.contrEquiv1 dot_S50000x16x64_S64x64_S50000x16x64_2_0_01_1_n_n 64 rfl rfl).symm c) = ix2 c q := funext fun a => Fin.ext (by
    match a with
    | ⟨0, _⟩ => exact (rhsB_0 _ _).trans hk
    | ⟨1, _⟩ => exact rhsB_1 _ _)
  rw [el, er]

theorem lhsO_0 (i : S50000x64.Idx) (q : dot_S50000x192_S192x64_S50000x64_1_0_0_1_n_n.contr.Idx) :
    (dot_S50000x192_S192x64_S50000x64_1_0_0_1_n_n.lhsIdx i q 0).val = (i 0).val := by
  unfold DotDims.lhsIdx
  rw [dif_neg (show ¬(0 : Fin S50000x192.rank) ∈ dot_S50000x192_S192x64_S50000x64_1_0_0_1_n_n.lhsBatch by decide), dif_pos (show (0 : Fin S50000x192.rank) ∈ dot_S50000x192_S192x64_S50000x64_1_0_0_1_n_n.lhsNonContracting by decide)]
  rfl
theorem lhsO_1 (i : S50000x64.Idx) (q : dot_S50000x192_S192x64_S50000x64_1_0_0_1_n_n.contr.Idx) :
    (dot_S50000x192_S192x64_S50000x64_1_0_0_1_n_n.lhsIdx i q 1).val = (q ⟨0, by decide⟩).val :=
  dot_S50000x192_S192x64_S50000x64_1_0_0_1_n_n.lhsIdx_val_of_single rfl i q
theorem rhsO_0 (i : S50000x64.Idx) (q : dot_S50000x192_S192x64_S50000x64_1_0_0_1_n_n.contr.Idx) :
    (dot_S50000x192_S192x64_S50000x64_1_0_0_1_n_n.rhsIdx i q 0).val = (q ⟨0, by decide⟩).val :=
  dot_S50000x192_S192x64_S50000x64_1_0_0_1_n_n.rhsIdx_val_of_single rfl i q
theorem rhsO_1 (i : S50000x64.Idx) (q : dot_S50000x192_S192x64_S50000x64_1_0_0_1_n_n.contr.Idx) :
    (dot_S50000x192_S192x64_S50000x64_1_0_0_1_n_n.rhsIdx i q 1).val = (i 1).val := by
  unfold DotDims.rhsIdx
  rw [dif_neg (show ¬(1 : Fin S192x64.rank) ∈ dot_S50000x192_S192x64_S50000x64_1_0_0_1_n_n.rhsBatch by decide), dif_pos (show (1 : Fin S192x64.rank) ∈ dot_S50000x192_S192x64_S50000x64_1_0_0_1_n_n.rhsNonContracting by decide)]
  rfl

/-- The joined rows through the output weights, at (n, q): the sum over the 192 channels. -/
theorem dotO_apply (l : FVec Ideal S50000x192 .f32) (r : FVec Ideal S192x64 .f32) (n : Fin 50000) (q : Fin 64) :
    Host.dotGeneral dot_S50000x192_S192x64_S50000x64_1_0_0_1_n_n none l r (ix2 n q) = ∑ j : Fin 192, l (ix2 n j) * r (ix2 j q) := by
  simp only [Host.dotGeneral]
  rw [Ideal.dotGeneral_apply, ← Equiv.sum_comp (ValueIdx.contrEquiv1 dot_S50000x192_S192x64_S50000x64_1_0_0_1_n_n 192 rfl rfl).symm]
  refine Finset.sum_congr rfl fun c _ => ?_
  have hk := ValueIdx.contrEquiv1_symm_val dot_S50000x192_S192x64_S50000x64_1_0_0_1_n_n 192 rfl rfl c
  have el : dot_S50000x192_S192x64_S50000x64_1_0_0_1_n_n.lhsIdx (ix2 n q) ((ValueIdx.contrEquiv1 dot_S50000x192_S192x64_S50000x64_1_0_0_1_n_n 192 rfl rfl).symm c) = ix2 n c := funext fun a => Fin.ext (by
    match a with
    | ⟨0, _⟩ => exact lhsO_0 _ _
    | ⟨1, _⟩ => exact (lhsO_1 _ _).trans hk)
  have er : dot_S50000x192_S192x64_S50000x64_1_0_0_1_n_n.rhsIdx (ix2 n q) ((ValueIdx.contrEquiv1 dot_S50000x192_S192x64_S50000x64_1_0_0_1_n_n 192 rfl rfl).symm c) = ix2 c q := funext fun a => Fin.ext (by
    match a with
    | ⟨0, _⟩ => exact (rhsO_0 _ _).trans hk
    | ⟨1, _⟩ => exact rhsO_1 _ _)
  rw [el, er]

/-- Row `o` of the table at channel `q`. -/
theorem hrow_apply (o : ℕ) (ho : o < 4) (hs : S4x64.Slices ![o, 0] S1x64) (bn : FVec Ideal S4x64 .f32) (q : Fin 64) :
    hrow o hs bn (ix1 q) = bn (ix2 (⟨o, ho⟩ : Fin 4) q) := by
  unfold hrow
  rw [shapeCast_1a_a_apply]
  exact slice2_axis0_apply o bn hs (0 : Fin 1) q ⟨o, ho⟩ rfl

/-- A channel vector broadcast over voxels and neighbours reads its channel. -/
theorem up3_apply (v : FVec Ideal S64 .f32) (n : Fin 50000) (k : Fin 16) (q : Fin 64) : up3 v (ix3 n k q) = v (ix1 q) := by
  unfold up3
  rw [broadcastInDim_apply ![0, 1, 2] bcast_S1x1x64_S50000x16x64_0_1_2 _ (ix3 n k q) (ix3 (0 : Fin 1) (0 : Fin 1) q) (fun a => by
    match a with
    | ⟨0, _⟩ => show 0 = if (1 : Nat) = 1 then 0 else n.val; rw [if_pos rfl]
    | ⟨1, _⟩ => show 0 = if (1 : Nat) = 1 then 0 else k.val; rw [if_pos rfl]
    | ⟨2, _⟩ => show q.val = if (64 : Nat) = 1 then 0 else q.val; rw [if_neg (by decide)])]
  exact broadcastInDim_apply ![2] bcast_S64_S1x1x64_2 v (ix3 (0 : Fin 1) (0 : Fin 1) q) (ix1 q) (fun a => by
    match a with
    | ⟨0, _⟩ => show q.val = if (64 : Nat) = 1 then 0 else q.val; rw [if_neg (by decide)])

/-- A channel vector broadcast over voxels reads its channel. -/
theorem up2_apply (v : FVec Ideal S64 .f32) (n : Fin 50000) (q : Fin 64) : up2 v (ix2 n q) = v (ix1 q) := by
  unfold up2
  rw [broadcastInDim_apply ![0, 1] bcast_S1x64_S50000x64_0_1 _ (ix2 n q) (ix2 (0 : Fin 1) q) (fun a => by
    match a with
    | ⟨0, _⟩ => show 0 = if (1 : Nat) = 1 then 0 else n.val; rw [if_pos rfl]
    | ⟨1, _⟩ => show q.val = if (64 : Nat) = 1 then 0 else q.val; rw [if_neg (by decide)])]
  exact broadcastInDim_apply ![1] bcast_S64_S1x64_1 v (ix2 (0 : Fin 1) q) (ix1 q) (fun a => by
    match a with
    | ⟨0, _⟩ => show q.val = if (64 : Nat) = 1 then 0 else q.val; rw [if_neg (by decide)])

theorem invStd_apply (bn : FVec Ideal S4x64 .f32) (q : Fin 64) :
    invStd bn (ix1 q) = Ideal.rsqrt (bn (ix2 (⟨3, by decide⟩ : Fin 4) q) + feps) := by
  unfold invStd
  show Ideal.rsqrt (hrow 3 slices_S4x64_S1x64_3_0 bn (ix1 q) + feps) = _
  rw [hrow_apply 3 (by decide)]

/-- Batch norm then relu at (n, k, q). -/
theorem bnRelu3_apply (bn : FVec Ideal S4x64 .f32) (h : FVec Ideal S50000x16x64 .f32) (n : Fin 50000) (k : Fin 16) (q : Fin 64) :
    bnRelu3 bn h (ix3 n k q) = relu (bnAt bn q (h (ix3 n k q))) := by
  unfold bnRelu3 relu bnAt
  show max ((h (ix3 n k q) - up3 (hrow 2 slices_S4x64_S1x64_2_0 bn) (ix3 n k q)) * up3 (invStd bn) (ix3 n k q)
      * up3 (hrow 0 slices_S4x64_S1x64_0_0 bn) (ix3 n k q) + up3 (hrow 1 slices_S4x64_S1x64_1_0 bn) (ix3 n k q)) fzero = _
  rw [up3_apply, up3_apply, up3_apply, up3_apply, invStd_apply, hrow_apply 2 (by decide), hrow_apply 0 (by decide), hrow_apply 1 (by decide)]

/-- Batch norm then relu at (n, q). -/
theorem bnRelu2_apply (bn : FVec Ideal S4x64 .f32) (h : FVec Ideal S50000x64 .f32) (n : Fin 50000) (q : Fin 64) :
    bnRelu2 bn h (ix2 n q) = relu (bnAt bn q (h (ix2 n q))) := by
  unfold bnRelu2 relu bnAt
  show max ((h (ix2 n q) - up2 (hrow 2 slices_S4x64_S1x64_2_0 bn) (ix2 n q)) * up2 (invStd bn) (ix2 n q)
      * up2 (hrow 0 slices_S4x64_S1x64_0_0 bn) (ix2 n q) + up2 (hrow 1 slices_S4x64_S1x64_1_0 bn) (ix2 n q)) fzero = _
  rw [up2_apply, up2_apply, up2_apply, up2_apply, invStd_apply, hrow_apply 2 (by decide), hrow_apply 0 (by decide), hrow_apply 1 (by decide)]

theorem reduces_nbr : S50000x16x64.Reduces [1] S50000x64 := by decide

/-- The reduced index (n, q) with neighbour `k` put back is (n, k, q). -/
theorem lift_ix3 (n : Fin 50000) (q : Fin 64) (k : Fin (S50000x16x64.size 1)) :
    reduces_nbr.lift (ix2 n q) k = ix3 n (⟨k.val, k.isLt⟩ : Fin 16) q := by
  funext c; apply Fin.ext
  fin_cases c <;> rfl

/-- The maximum over the neighbour axis from −∞, at (n, q), as the fold over the sixteen neighbours. -/
theorem reduceMax_apply (x : FVec Ideal S50000x16x64 .f32) (n : Fin 50000) (q : Fin 64) :
    Host.reduce FloatOps.maximumf x (constant S_ .f32 0xFF800000#32) reducesTo_S50000x16x64_S50000x64_d1 h_S_ (ix2 n q)
      = (Finset.univ : Finset (Fin 16)).fold max fninf (fun k => x (ix3 n k q)) := by
  rw [Host.reduce_eq_fold_single FloatOps.maximumf x _ reducesTo_S50000x16x64_S50000x64_d1 reduces_nbr h_S_]
  have hf : (x ∘ reduces_nbr.lift (ix2 n q)) = fun k : Fin 16 => x (ix3 n k q) := funext fun k => congrArg x (lift_ix3 n q k)
  exact congrArg (fun f => Finset.fold max fninf f (Finset.univ : Finset (Fin 16))) hf

theorem pool1_apply (g : FVec Ideal S50000x16x32 .f32) (w : FVec Ideal S32x64 .f32) (bn : FVec Ideal S4x64 .f32) (n : Fin 50000) (q : Fin 64) :
    pool1 g w bn (ix2 n q) = pooled w bn (fun k c => g (ix3 n k c)) q := by
  unfold pool1 pooled
  rw [reduceMax_apply]
  refine congrArg (fun f => Finset.fold max fninf f (Finset.univ : Finset (Fin 16))) (funext fun k => ?_)
  rw [bnRelu3_apply, dotA_apply]
  rfl

theorem pool2_apply (g : FVec Ideal S50000x16x64 .f32) (w : FVec Ideal S64x64 .f32) (bn : FVec Ideal S4x64 .f32) (n : Fin 50000) (q : Fin 64) :
    pool2 g w bn (ix2 n q) = pooled w bn (fun k c => g (ix3 n k c)) q := by
  unfold pool2 pooled
  rw [reduceMax_apply]
  refine congrArg (fun f => Finset.fold max fninf f (Finset.univ : Finset (Fin 16))) (funext fun k => ?_)
  rw [bnRelu3_apply, dotB_apply]
  rfl

/-- The reference at (n, q) is the layer's output row n at channel q. -/
theorem hostLayer_apply (x2 : FVec Ideal S50000x64 .f32) (g1 : FVec Ideal S50000x16x32 .f32) (g2 : FVec Ideal S50000x16x64 .f32)
    (x3 : FVec Ideal S32x64 .f32) (x4 : FVec Ideal S4x64 .f32) (x5 : FVec Ideal S64x64 .f32) (x6 : FVec Ideal S4x64 .f32)
    (x7 : FVec Ideal S192x64 .f32) (x8 : FVec Ideal S4x64 .f32) (n : Fin 50000) (q : Fin 64) :
    hostLayer x2 g1 g2 x3 x4 x5 x6 x7 x8 (ix2 n q)
      = rowOut x3 x4 x5 x6 x7 x8 (fun j => x2 (ix2 n j)) (fun k c => g1 (ix3 n k c)) (fun k c => g2 (ix3 n k c)) q := by
  unfold hostLayer rowOut
  rw [bnRelu2_apply, dotO_apply]
  refine congrArg (fun s => relu (bnAt x8 q s)) (Finset.sum_congr rfl fun j _ => ?_)
  rw [concat3_apply]
  simp only [pool1_apply, pool2_apply]

/-- The reference's result array is the layer. -/
theorem hostLayer_eq (x2 : FVec Ideal S50000x64 .f32) (g1 : FVec Ideal S50000x16x32 .f32) (g2 : FVec Ideal S50000x16x64 .f32)
    (x3 : FVec Ideal S32x64 .f32) (x4 : FVec Ideal S4x64 .f32) (x5 : FVec Ideal S64x64 .f32) (x6 : FVec Ideal S4x64 .f32)
    (x7 : FVec Ideal S192x64 .f32) (x8 : FVec Ideal S4x64 .f32) :
    hostLayer x2 g1 g2 x3 x4 x5 x6 x7 x8 = layer x3 x4 x5 x6 x7 x8 x2 g1 g2 := by
  funext i
  obtain ⟨n, q, rfl⟩ : ∃ (n : Fin 50000) (q : Fin 64), i = ix2 n q := ⟨i 0, i 1, eq_ix2 i⟩
  rw [hostLayer_apply, layer_apply]

end Cert.ReferenceIdeal.Lyr

end
-- ==== Proof.lean ====
/-
  Two-scale neighbour grouping with max-pool, then a dense output layer, on 50000 voxels: the Pallas kernel against
  its jnp reference, over the extended reals.

  Both programs gather sixteen neighbour rows per voxel at two scales on the host (the same host lines).  The kernel
  then handles a thousand voxels per grid point: for each neighbour in turn it multiplies the neighbour's features by
  the weights, applies evaluation-mode batch norm and relu, and keeps a running maximum started at zero; it joins the
  voxel's own features with the two pooled vectors, applies the output weights, batch norm and relu.  The reference
  does the same on all voxels at once, with the maximum over the neighbour axis started at −∞.  The two agree because
  every pooled term is a relu, hence at least zero, so starting the maximum at zero or at −∞ makes no difference over
  sixteen neighbours; sums and products are the same sums and products, term by term, so no finiteness is used.

  Modules: RowSpec (one output row as a formula, and the zero-versus-−∞ lemma), LayoutAt (slices, casts, broadcasts and
  the three-way join read at an index), ArraySpec (the formula on whole arrays), KernelBlock / KernelBlockAt (the kernel
  body on one tile is the formula on the tile's rows), KernelArray (fifty tiles cover the array; the kernel's run),
  RefLayer (the reference is the formula), LibNary3 and RefRun (the reference's run).
-/
import proofs.«176574_j52956946760189_1_alg».proof.Defs
import proofs.«176574_j52956946760189_1_alg».proof.Proof.Gen.Kernel
import proofs.«176574_j52956946760189_1_alg».proof.Proof.Gen.Kernel.Skeleton
import proofs.«176574_j52956946760189_1_alg».proof.Proof.Gen.Kernel.Launch
import proofs.«176574_j52956946760189_1_alg».proof.Proof.Gen.Kernel.Points
import proofs.«176574_j52956946760189_1_alg».proof.Proof.Gen.Kernel.Frame
import proofs.«176574_j52956946760189_1_alg».proof.Proof.Gen.KernelIdeal
import proofs.«176574_j52956946760189_1_alg».proof.Proof.Gen.KernelIdeal.Skeleton
import proofs.«176574_j52956946760189_1_alg».proof.Proof.Gen.KernelIdeal.Launch
import proofs.«176574_j52956946760189_1_alg».proof.Proof.Gen.KernelIdeal.Points
import proofs.«176574_j52956946760189_1_alg».proof.Proof.Gen.KernelIdeal.Frame
import proofs.«176574_j52956946760189_1_alg».proof.Proof.Gen.ReferenceIdeal
import proofs.«176574_j52956946760189_1_alg».proof.Proof.Gen.Pre_finite_inputs
import proofs.«176574_j52956946760189_1_alg».proof.Proof.KernelArray
import proofs.«176574_j52956946760189_1_alg».proof.Proof.RefRun
import proofs.«176574_j52956946760189_1_alg».proof.Proof.RefLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed nothing that needs a statement. -/
theorem preserves : Cert.preserves_Kernel_KernelIdeal := trivial

/-- The gathered arrays of the two programs are the same function of the same arguments. -/
theorem gathered1_eq (x0 : Cert.KernelIdeal.S200000x32.Idx → EReal) (x9 : IVec Cert.KernelIdeal.S50000x16 32) :
    Cert.ReferenceIdeal.Lyr.gathered1 (F := Ideal) x0 x9 = Cert.KernelIdeal.Arr.gathered1 x0 x9 := rfl

theorem gathered2_eq (x1 : Cert.KernelIdeal.S100000x64.Idx → EReal) (x10 : IVec Cert.KernelIdeal.S50000x16 32) :
    Cert.ReferenceIdeal.Lyr.gathered2 (F := Ideal) x1 x10 = Cert.KernelIdeal.Arr.gathered2 x1 x10 := rfl

/-- What the reference's run states is the grouped form of the same operations. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v91 m c
      = Cert.ReferenceIdeal.Lyr.hostLayer (F := Ideal) (m ((c.tc : Thread Cert.ReferenceIdeal.nD Cert.ReferenceIdeal.τ).loc Cert.ReferenceIdeal.main_arg2))
          (Cert.ReferenceIdeal.Lyr.gathered1 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg9)))
          (Cert.ReferenceIdeal.Lyr.gathered2 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg10)))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) := rfl

/-- Both results are the layer of the same arguments. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [res_eq, a0, a1, a2, a3, a4, a5, a6, a7, a8, a9, a10, Cert.ReferenceIdeal.Lyr.hostLayer_eq, gathered1_eq, gathered2_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
